-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S256x512 : Shape := ⟨2, ![256, 512]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_

variable [Facts]

def fn_part1 {F : FTy → Type} [FloatOps F] (main_v13 : IVec S_ 1) (main_v16 : IVec S256x512 1) : IVec S_ 1 :=
  let main_c_5 : IVec S_ 1 := constantI S_ 1 1#1
  let main_v17 : IVec S_ 1 := (fun x v => Host.reduce IntOp.andi x v reducesTo_S256x512_S_d0_1 h_S_) main_v16 main_c_5
  let main_v18 : IVec S_ 1 := andi main_v13 main_v17
  main_v18

def fn {F : FTy → Type} [FloatOps F] (main_arg0 : FVec F S131072x256 .f32) (main_arg1 : FVec F S256x512 .f32) (main_arg2 : FVec F S256x512 .f32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S256x512 .f32 := Host.absf main_arg2
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S256x512 .f32 := mulf main_arg2 main_arg2
  let main_cst_4 : FVec F S_ .f32 := constant S_ .f32 0x00000000#32
  let main_v15 : FVec F S256x512 .f32 := broadcastInDim S256x512 ![] bcast_S_S256x512 main_cst_4
  let main_v16 : IVec S256x512 1 := cmpf .ogt main_v14 main_v15
  fn_part1 (F := F) main_v13 main_v16
-- ==== Kernel.lean ====
abbrev S131072x256 : Shape := ⟨2, ![131072, 256]⟩
abbrev S256x512 : Shape := ⟨2, ![256, 512]⟩
abbrev S_ : Shape := ⟨0, ![]⟩
abbrev S512 : Shape := ⟨1, ![512]⟩
abbrev S1x512 : Shape := ⟨2, ![1, 512]⟩
abbrev S131072x512 : Shape := ⟨2, ![131072, 512]⟩
abbrev S4096x256 : Shape := ⟨2, ![4096, 256]⟩
abbrev S4096x512 : Shape := ⟨2, ![4096, 512]⟩

abbrev nBuf : Space → Nat
  | .hbm => 29
  | .vmem => 7
  | .smem => 0
  | _ => 0

abbrev bufTy : (tb : Table) → Fin (tcTables nBuf tb) → BufTy
  | .hbm, ⟨0, _⟩ => ⟨S131072x256, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S_, .f32⟩
  | .hbm, ⟨5, _⟩ => ⟨S256x512, .f32⟩
  | .hbm, ⟨6, _⟩ => ⟨S256x512, .f32⟩
  | .hbm, ⟨7, _⟩ => ⟨S256x512, .f32⟩
  | .hbm, ⟨8, _⟩ => ⟨S256x512, .f32⟩
  | .hbm, ⟨9, _⟩ => ⟨S256x512, .f32⟩
  | .hbm, ⟨10, _⟩ => ⟨S_, .f32⟩
  | .hbm, ⟨11, _⟩ => ⟨S512, .f32⟩
  | .hbm, ⟨12, _⟩ => ⟨S256x512, .f32⟩
  | .hbm, ⟨13, _⟩ => ⟨S_, .f32⟩
  | .hbm, ⟨14, _⟩ => ⟨S512, .f32⟩
  | .hbm, ⟨15, _⟩ => ⟨S_, .f32⟩
  | .hbm, ⟨16, _⟩ => ⟨S512, .f32⟩
  | .hbm, ⟨17, _⟩ => ⟨S512, .f32⟩
  | .hbm, ⟨18, _⟩ => ⟨S_, .f32⟩
  | .hbm, ⟨19, _⟩ => ⟨S512, .f32⟩
  | .hbm, ⟨20, _⟩ => ⟨S512, .f32⟩
  | .hbm, ⟨21, _⟩ => ⟨S512, .f32⟩
  | .hbm, ⟨22, _⟩ => ⟨S_, .f32⟩
  | .hbm, ⟨23, _⟩ => ⟨S512, .f32⟩
  | .hbm, ⟨24, _⟩ => ⟨S512, .f32⟩
  | .hbm, ⟨25, _⟩ => ⟨S1x512, .f32⟩
  | .hbm, ⟨26, _⟩ => ⟨S256x512, .bf16⟩
  | .hbm, ⟨27, _⟩ => ⟨S256x512, .bf16⟩
  | .hbm, ⟨28, _⟩ => ⟨S131072x512, .f32⟩
  | .local _ .vmem, ⟨0, _⟩ => ⟨S4096x256, .f32⟩
  | .local _ .vmem, ⟨1, _⟩ => ⟨S4096x256, .f32⟩
  | .local _ .vmem, ⟨2, _⟩ => ⟨S256x512, .bf16⟩
  | .local _ .vmem, ⟨3, _⟩ => ⟨S256x512, .bf16⟩
  | .local _ .vmem, ⟨4, _⟩ => ⟨S1x512, .f32⟩
  | .local _ .vmem, ⟨5, _⟩ => ⟨S4096x512, .f32⟩
  | .local _ .vmem, ⟨6, _⟩ => ⟨S4096x512, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_4 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S256x512 : S_.BroadcastsInDim S256x512 (![] : Fin 0 → Fin S256x512.rank)
  reducesTo_S256x512_S512_d0 : S256x512.ReducesTo [0] S512
  h_S_ : 0 < S_.numel
  bcast_S_S512 : S_.BroadcastsInDim S512 (![] : Fin 0 → Fin S512.rank)
  shapeCasts_S512_S1x512 : S512.ShapeCasts S1x512
  bitsLt_bf16_f32 : FTy.bits .bf16 < FTy.bits .f32
  inb_S4096x256_S4096x256_0_0 : ∀ a, (![0, 0] : Fin 2 → Nat) a + S4096x256.size a ≤ S4096x256.size a
  h_S4096x256 : 0 < S4096x256.numel
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S4096x512 : S1x512.Broadcasts S4096x512
  inb_S4096x512_S4096x512_0_0 : ∀ a, (![0, 0] : Fin 2 → Nat) a + S4096x512.size a ≤ S4096x512.size a
  h_S4096x512 : 0 < S4096x512.numel
  dot_S4096x256_S256x512_S4096x512_1_0_0_1_n_n_wf : DotDims.WF S4096x256 S256x512 S4096x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S131072x256.size a
  hwx0_0 : ∀ i : grid0.Coords, EltTy.bits .f32 = 32 ∨ (Rect.block (s := S131072x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .bf16 = 32 ∨ (Rect.block (s := S256x512) S256x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x512.size a
  hwx0_2 : ∀ i : grid0.Coords, EltTy.bits .bf16 = 32 ∨ (Rect.block (s := S256x512) S256x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x512.size a ≤ S131072x512.size a
  hwx0_4 : ∀ i : grid0.Coords, EltTy.bits .f32 = 32 ∨ (Rect.block (s := S131072x512) S4096x512.size (cc0_transform_4 i) (hinb0_4 i)).WholeWords (EltTy.packing .f32)

variable [Facts₀]

def dot_S4096x256_S256x512_S4096x512_1_0_0_1_n_n : DotDims S4096x256 S256x512 S4096x512 where
  lhsContracting := [1]
  rhsContracting := [0]
  lhsNonContracting := [0]
  rhsNonContracting := [1]
  lhsBatch := []
  rhsBatch := []
  wf := dot_S4096x256_S256x512_S4096x512_1_0_0_1_n_n_wf

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S4096x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S131072x256 : Shape := ⟨2, ![131072, 256]⟩
abbrev S256x512 : Shape := ⟨2, ![256, 512]⟩
abbrev S_ : Shape := ⟨0, ![]⟩
abbrev S131072x512 : Shape := ⟨2, ![131072, 512]⟩
abbrev S512 : Shape := ⟨1, ![512]⟩
abbrev S1x512 : Shape := ⟨2, ![1, 512]⟩

abbrev nBuf : Space → Nat
  | .hbm => 38
  | .vmem => 0
  | .smem => 0
  | _ => 0

abbrev bufTy : (tb : Table) → Fin (tcTables nBuf tb) → BufTy
  | .hbm, ⟨0, _⟩ => ⟨S131072x256, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S_, .f32⟩
  | .hbm, ⟨5, _⟩ => ⟨S256x512, .f32⟩
  | .hbm, ⟨6, _⟩ => ⟨S256x512, .f32⟩
  | .hbm, ⟨7, _⟩ => ⟨S131072x256, .f32⟩
  | .hbm, ⟨8, _⟩ => ⟨S131072x512, .f32⟩
  | .hbm, ⟨9, _⟩ => ⟨S256x512, .f32⟩
  | .hbm, ⟨10, _⟩ => ⟨S131072x512, .f32⟩
  | .hbm, ⟨11, _⟩ => ⟨S_, .f32⟩
  | .hbm, ⟨12, _⟩ => ⟨S131072x512, .f32⟩
  | .hbm, ⟨13, _⟩ => ⟨S131072x512, .f32⟩
  | .hbm, ⟨14, _⟩ => ⟨S131072x512, .f32⟩
  | .hbm, ⟨15, _⟩ => ⟨S256x512, .f32⟩
  | .hbm, ⟨16, _⟩ => ⟨S256x512, .f32⟩
  | .hbm, ⟨17, _⟩ => ⟨S_, .f32⟩
  | .hbm, ⟨18, _⟩ => ⟨S512, .f32⟩
  | .hbm, ⟨19, _⟩ => ⟨S1x512, .f32⟩
  | .hbm, ⟨20, _⟩ => ⟨S131072x512, .f32⟩
  | .hbm, ⟨21, _⟩ => ⟨S131072x512, .f32⟩
  | .hbm, ⟨22, _⟩ => ⟨S256x512, .f32⟩
  | .hbm, ⟨23, _⟩ => ⟨S256x512, .f32⟩
  | .hbm, ⟨24, _⟩ => ⟨S_, .f32⟩
  | .hbm, ⟨25, _⟩ => ⟨S512, .f32⟩
  | .hbm, ⟨26, _⟩ => ⟨S_, .f32⟩
  | .hbm, ⟨27, _⟩ => ⟨S131072x512, .f32⟩
  | .hbm, ⟨28, _⟩ => ⟨S131072x512, .f32⟩
  | .hbm, ⟨29, _⟩ => ⟨S1x512, .f32⟩
  | .hbm, ⟨30, _⟩ => ⟨S_, .f32⟩
  | .hbm, ⟨31, _⟩ => ⟨S1x512, .f32⟩
  | .hbm, ⟨32, _⟩ => ⟨S1x512, .f32⟩
  | .hbm, ⟨33, _⟩ => ⟨S131072x512, .f32⟩
  | .hbm, ⟨34, _⟩ => ⟨S131072x512, .f32⟩
  | .hbm, ⟨35, _⟩ => ⟨S_, .f32⟩
  | .hbm, ⟨36, _⟩ => ⟨S131072x512, .f32⟩
  | .hbm, ⟨37, _⟩ => ⟨S131072x512, .f32⟩
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]

class Facts₀ : Prop where
  bcast_S_S256x512 : S_.BroadcastsInDim S256x512 (![] : Fin 0 → Fin S256x512.rank)
  bcast_S_S131072x512 : S_.BroadcastsInDim S131072x512 (![] : Fin 0 → Fin S131072x512.rank)
  reducesTo_S256x512_S512_d0 : S256x512.ReducesTo [0] S512
  h_S_ : 0 < S_.numel
  bcast_S512_S1x512_1 : S512.BroadcastsInDim S1x512 (![1] : Fin 1 → Fin S1x512.rank)
  bcast_S1x512_S131072x512_0_1 : S1x512.BroadcastsInDim S131072x512 (![0, 1] : Fin 2 → Fin S131072x512.rank)
  bcast_S_S1x512 : S_.BroadcastsInDim S1x512 (![] : Fin 0 → Fin S1x512.rank)
  dot_S131072x256_S256x512_S131072x512_1_0_0_1_n_n_wf : DotDims.WF S131072x256 S256x512 S131072x512 [1] [0] [0] [1] [] []

variable [Facts₀]

def dot_S131072x256_S256x512_S131072x512_1_0_0_1_n_n : DotDims S131072x256 S256x512 S131072x512 where
  lhsContracting := [1]
  rhsContracting := [0]
  lhsNonContracting := [0]
  rhsNonContracting := [1]
  lhsBatch := []
  rhsBatch := []
  wf := dot_S131072x256_S256x512_S131072x512_1_0_0_1_n_n_wf

class Facts : Prop extends Facts₀ where

variable [Facts]
-- ==== Proof.LibPlainDot.lean ====
/-
  A matrix product with the plain dimension numbers, read at an entry (general in the sizes).

  For a left operand `[R, K]`, a right operand `[K, N]` and a result `[R, N]`, when the left operand contracts
  its second axis, the right one its first, neither has a batch axis, and the result's axes are the left
  operand's rows then the right operand's columns, the sum over the contraction index at the entry `(p, q)` is
  the sum over `k : Fin K` of `l (p, k) * r (k, q)`. Stated once for any such record of dimension numbers, it
  reads a kernel's matrix product into a zero accumulator and a host's general dot product the same way.
-/
import Idealize.ShloMosaic.Lib.ValueIdx
import Idealize.ShloMosaic.PureOps.Ideal.Laws

open scoped BigOperators

namespace Idealize.ShloMosaic.PlainDot

open Idealize.ShloMosaic Idealize.ShloMosaic.ValueIdx

variable {R K N : ℕ}

/-- The dimension numbers of `[R, K] · [K, N] → [R, N]`: one contracted axis each (the left operand's columns, the
    right operand's rows), no batch axes, rows before columns in the result. -/
structure IsPlain (d : DotDims (⟨2, ![R, K]⟩ : Shape) (⟨2, ![K, N]⟩ : Shape) (⟨2, ![R, N]⟩ : Shape)) : Prop where
  lc : d.lhsContracting = [1]
  rc : d.rhsContracting = [0]
  ln : d.lhsNonContracting = [0]
  rn : d.rhsNonContracting = [1]
  lb : d.lhsBatch = []
  rb : d.rhsBatch = []

variable {d : DotDims (⟨2, ![R, K]⟩ : Shape) (⟨2, ![K, N]⟩ : Shape) (⟨2, ![R, N]⟩ : Shape)}

private theorem coord_congr {s : Shape} (j : s.Idx) (a b : ℕ) (ha : a < s.rank) (hb : b < s.rank) (h : a = b) :
    (j ⟨a, ha⟩).val = (j ⟨b, hb⟩).val := by subst h; rfl

/-- The left operand's row is the result's row. -/
theorem lhs_row (h : IsPlain d) (j : (⟨2, ![R, N]⟩ : Shape).Idx) (k : d.contr.Idx) :
    (d.lhsIdx j k (0 : Fin 2)).val = (j (0 : Fin 2)).val := by
  have hb : (0 : Fin 2) ∉ d.lhsBatch := by rw [h.lb]; exact List.not_mem_nil
  have hn : (0 : Fin 2) ∈ d.lhsNonContracting := by rw [h.ln]; exact List.mem_singleton.mpr rfl
  unfold DotDims.lhsIdx
  rw [dif_neg hb, dif_pos hn]
  simp only [Fin.val_cast]
  exact coord_congr j _ _ _ _ (by simp [h.lb, h.ln])

/-- The left operand's column is the contraction coordinate. -/
theorem lhs_col (h : IsPlain d) (j : (⟨2, ![R, N]⟩ : Shape).Idx) (k : d.contr.Idx) :
    (d.lhsIdx j k (1 : Fin 2)).val = (k ⟨0, by rw [d.rank_contr, h.lc]; exact Nat.one_pos⟩).val :=
  d.lhsIdx_val_of_single h.lc j k

/-- The right operand's row is the contraction coordinate. -/
theorem rhs_row (h : IsPlain d) (j : (⟨2, ![R, N]⟩ : Shape).Idx) (k : d.contr.Idx) :
    (d.rhsIdx j k (0 : Fin 2)).val = (k ⟨0, by rw [d.rank_contr, ← d.length_contracting, h.rc]; exact Nat.one_pos⟩).val :=
  d.rhsIdx_val_of_single h.rc j k

/-- The right operand's column is the result's column. -/
theorem rhs_col (h : IsPlain d) (j : (⟨2, ![R, N]⟩ : Shape).Idx) (k : d.contr.Idx) :
    (d.rhsIdx j k (1 : Fin 2)).val = (j (1 : Fin 2)).val := by
  have hb : (1 : Fin 2) ∉ d.rhsBatch := by rw [h.rb]; exact List.not_mem_nil
  have hn : (1 : Fin 2) ∈ d.rhsNonContracting := by rw [h.rn]; exact List.mem_singleton.mpr rfl
  unfold DotDims.rhsIdx
  rw [dif_neg hb, dif_pos hn]
  simp only [Fin.val_cast]
  exact coord_congr j _ _ _ _ (by simp [h.lb, h.ln, h.rn])

theorem contr_rank (h : IsPlain d) : d.contr.rank = 1 := by rw [d.rank_contr, h.lc]; rfl

theorem contr_size (h : IsPlain d) : d.contr.size ⟨0, by rw [contr_rank h]; exact Nat.one_pos⟩ = K := by
  rw [d.size_contr 0 (by rw [h.lc]; exact Nat.one_pos)]
  simp [h.lc]

/-- The contraction sum at the entry `(p, q)`, over the one contracted coordinate. -/
theorem sum_contr (h : IsPlain d) (l : (⟨2, ![R, K]⟩ : Shape).Idx → EReal) (r : (⟨2, ![K, N]⟩ : Shape).Idx → EReal)
    (p : Fin R) (q : Fin N) :
    ∑ k : d.contr.Idx, l (d.lhsIdx (ix2 p q) k) * r (d.rhsIdx (ix2 p q) k) = ∑ k : Fin K, l (ix2 p k) * r (ix2 k q) := by
  rw [← Equiv.sum_comp (contrEquiv1 d K (contr_rank h) (contr_size h)).symm]
  refine Finset.sum_congr rfl fun k _ => ?_
  have hl : d.lhsIdx (ix2 p q) ((contrEquiv1 d K (contr_rank h) (contr_size h)).symm k) = ix2 p k := by
    funext a
    refine Fin.ext ?_
    match a with
    | ⟨0, _⟩ => exact lhs_row h _ _
    | ⟨1, _⟩ => exact (lhs_col h _ _).trans (contrEquiv1_symm_val d K (contr_rank h) (contr_size h) k)
  have hr : d.rhsIdx (ix2 p q) ((contrEquiv1 d K (contr_rank h) (contr_size h)).symm k) = ix2 k q := by
    funext a
    refine Fin.ext ?_
    match a with
    | ⟨0, _⟩ => exact (rhs_row h _ _).trans (contrEquiv1_symm_val d K (contr_rank h) (contr_size h) k)
    | ⟨1, _⟩ => exact rhs_col h _ _
  rw [hl, hr]

/-- A kernel's matrix product into the zero accumulator, at the ideal values, read at `(p, q)`. -/
theorem matmul_zero_apply (h : IsPlain d) (prec : Option ContractPrecision)
    (l : FVec Ideal (⟨2, ![R, K]⟩ : Shape) .f32) (r : FVec Ideal (⟨2, ![K, N]⟩ : Shape) .f32) (p : Fin R) (q : Fin N) :
    FloatOps.matmul d prec l r (constant (⟨2, ![R, N]⟩ : Shape) .f32 0x00000000#32) (ix2 p q)
      = ∑ k : Fin K, l (ix2 p k) * r (ix2 k q) :=
  (Ideal.matmul_constant_zero_apply d prec l r (ix2 p q)).trans (sum_contr h l r p q)

/-- A host's general dot product, at the ideal values, read at `(p, q)`. -/
theorem dotGeneral_apply (h : IsPlain d) (prec : Option ContractPrecision) (sched : HostSchedule)
    (l : FVec Ideal (⟨2, ![R, K]⟩ : Shape) .f32) (r : FVec Ideal (⟨2, ![K, N]⟩ : Shape) .f32) (p : Fin R) (q : Fin N) :
    FloatOps.dotGeneral d prec sched l r (ix2 p q) = ∑ k : Fin K, l (ix2 p k) * r (ix2 k q) :=
  (Ideal.dotGeneral_apply d prec sched l r (ix2 p q)).trans (sum_contr h l r p q)

end Idealize.ShloMosaic.PlainDot
-- ==== Proof.KernelBody.lean ====
/-
  The kernel body's one store, read at an entry `(p, q)` of its `[4096, 512]` block. From the four loaded blocks — the
  rows `x0`, the tables `x1` (reciprocal squared scales) and `x2` (scaled locations), and the row vector `x3` of
  per-column constants — the stored value is

      (-½ · Σ_d x0[p,d]² · x1[d,q]  +  Σ_d x0[p,d] · x2[d,q])  +  x3[0,q] :

  two matrix products into a zero accumulator (each a plain sum over the contracted coordinate at the ideal
  reading, the narrowing of the operands being the identity there), the first scaled by `-½`, and the row vector
  broadcast down the rows.
-/
import proofs.«170553_j13838384628107_1_alg».proof.Proof.Gen.KernelIdeal.Skeleton
import proofs.«170553_j13838384628107_1_alg».proof.Proof.LibPlainDot
import Idealize.ShloMosaic.Lib.ValueLayout
import Idealize.ShloMosaic.Lib.Pipeline.Value
import Idealize.ShloMosaic.Lib.ValueIdx

noncomputable section

namespace Cert.Gmm.Body

open Idealize.ShloMosaic Idealize.ShloMosaic.ValueIdx Cert.KernelIdeal Cert.KernelIdeal.Gen
open scoped BigOperators

/-- The body's products contract the left operand's columns with the right operand's rows, with no batch axis. -/
theorem dot_plain : PlainDot.IsPlain dot_S4096x256_S256x512_S4096x512_1_0_0_1_n_n := ⟨rfl, rfl, rfl, rfl, rfl, rfl⟩

/-- The stored value at `(p, q)`, from the loaded blocks' entries. -/
theorem pay_apply (x0 : Vec Ideal S4096x256 .f32) (x1 x2 : Vec Ideal S256x512 .bf16) (x3 : Vec Ideal S1x512 .f32)
    (p : Fin 4096) (q : Fin 512) :
    k0_pay1 (F := Ideal) x0 x1 x2 x3 (ix2 p q)
      = (Ideal.ofBits .f32 0xBF000000#32 * (∑ k : Fin 256, (x0 (ix2 p k) * x0 (ix2 p k)) * x1 (ix2 k q))
          + ∑ k : Fin 256, x0 (ix2 p k) * x2 (ix2 k q)) + x3 (ix2 (0 : Fin 1) q) := by
  unfold k0_pay1
  simp only [shapeCast_self]
  show (Ideal.ofBits .f32 0xBF000000#32
          * FloatOps.matmul dot_S4096x256_S256x512_S4096x512_1_0_0_1_n_n none (truncf .bf16 (mulf x0 x0) bitsLt_bf16_f32) x1
              (constant S4096x512 .f32 0x00000000#32) (ix2 p q)
        + FloatOps.matmul dot_S4096x256_S256x512_S4096x512_1_0_0_1_n_n none (truncf .bf16 x0 bitsLt_bf16_f32) x2
              (constant S4096x512 .f32 0x00000000#32) (ix2 p q))
      + broadcastTo S4096x512 x3 broadcasts_S1x512_S4096x512 (ix2 p q) = _
  rw [Ideal.matmul_constant_zero_apply, Ideal.matmul_constant_zero_apply, PlainDot.sum_contr dot_plain,
    PlainDot.sum_contr dot_plain, ValueIdx.broadcastTo_1b_ab_apply]
  rfl

end Cert.Gmm.Body

end
-- ==== Proof.LibERealArith.lean ====
/-
  Extended-real arithmetic on REAL inputs, moved into ℝ.

  At the ideal reading every float is an extended real and every float operation is the exact operation on
  [-∞, +∞]. When every operand is (the coercion of) a real number, each such operation answers the coercion of
  the corresponding real operation; the lemmas below say so, operation by operation, with the extended-real
  form on the LEFT, so that rewriting with them pushes a whole expression under one coercion, where `ring`,
  `field_simp` and the `Finset` algebra of ℝ apply. The float literals the two programs spell are evaluated
  here once, as real numbers.
-/
import Idealize.ShloMosaic.PureOps.Ideal
import Idealize.ShloMosaic.PureOps.Ideal.Laws
import Mathlib.Data.EReal.Basic
import Mathlib.Data.EReal.Operations
import Mathlib.Data.EReal.Inv
import Mathlib.Algebra.BigOperators.Group.Finset.Basic
import Mathlib.Tactic.NormNum
import Mathlib.Tactic.Ring
import Mathlib.Tactic.Linarith

noncomputable section

namespace Cert.Lib.ERealArith

open Idealize.ShloMosaic
open scoped BigOperators

/-! ### Sums, products, differences, maxima of coercions -/

/-- A finite sum of coercions is the coercion of the real sum. -/
theorem sum_coe {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- `sum_coe` over a whole finite type. -/
theorem univ_sum_coe {ι : Type*} [Fintype ι] (f : ι → ℝ) :
    (∑ i, ((f i : ℝ) : EReal)) = ((∑ i, f i : ℝ) : EReal) := sum_coe _ f

/-- A finite sum whose every term is known to be a coercion is the coercion of the real sum. -/
theorem sum_eq_coe {ι : Type*} (s : Finset ι) (g : ι → EReal) (f : ι → ℝ) (h : ∀ i ∈ s, g i = ((f i : ℝ) : EReal)) :
    (∑ i ∈ s, g i) = ((∑ i ∈ s, f i : ℝ) : EReal) := by
  rw [Finset.sum_congr rfl h, sum_coe]

/-- The sum of two coercions. -/
theorem add_coe (a b : ℝ) : (a : EReal) + (b : EReal) = ((a + b : ℝ) : EReal) := (EReal.coe_add a b).symm

/-- The difference of two coercions. -/
theorem sub_coe (a b : ℝ) : (a : EReal) - (b : EReal) = ((a - b : ℝ) : EReal) := (EReal.coe_sub a b).symm

/-- The product of two coercions. -/
theorem mul_coe (a b : ℝ) : (a : EReal) * (b : EReal) = ((a * b : ℝ) : EReal) := (EReal.coe_mul a b).symm

/-- The negative of a coercion. -/
theorem neg_coe (a : ℝ) : -(a : EReal) = ((-a : ℝ) : EReal) := (EReal.coe_neg a).symm

/-- The maximum of two coercions. -/
theorem max_coe (a b : ℝ) : max (a : EReal) (b : EReal) = ((max a b : ℝ) : EReal) := (EReal.coe_strictMono.monotone.map_max (a := a) (b := b)).symm

/-- The minimum of two coercions. -/
theorem min_coe (a b : ℝ) : min (a : EReal) (b : EReal) = ((min a b : ℝ) : EReal) := (EReal.coe_strictMono.monotone.map_min (a := a) (b := b)).symm

/-- The extended zero is the coercion of the real zero. -/
theorem zero_eq_coe : (0 : EReal) = ((0 : ℝ) : EReal) := EReal.coe_zero.symm
/-- The extended one is the coercion of the real one. -/
theorem one_eq_coe : (1 : EReal) = ((1 : ℝ) : EReal) := EReal.coe_one.symm

/-- A coercion is not `+∞`. -/
theorem coe_ne_top' (a : ℝ) : (a : EReal) ≠ ⊤ := EReal.coe_ne_top a
/-- A coercion is not `-∞`. -/
theorem coe_ne_bot' (a : ℝ) : (a : EReal) ≠ ⊥ := EReal.coe_ne_bot a

/-! ### Quotient and the square roots -/

/-- The quotient of two coercions by a nonzero divisor is the coercion of the real quotient. -/
theorem div_coe {b : ℝ} (hb : b ≠ 0) (a : ℝ) : Ideal.div (a : EReal) (b : EReal) = ((a / b : ℝ) : EReal) := by
  rw [Ideal.div_coe hb, ← EReal.coe_mul, mul_one_div]

/-- The reciprocal square root of a positive real. -/
theorem rsqrt_coe {r : ℝ} (hr : 0 < r) : Ideal.rsqrt (r : EReal) = (((Real.sqrt r)⁻¹ : ℝ) : EReal) := by
  rw [Ideal.rsqrt_coe, if_neg (not_lt.mpr hr.le), if_neg hr.ne']

/-- The square root of a nonnegative real. -/
theorem sqrt_coe {r : ℝ} (hr : 0 ≤ r) : Ideal.sqrt (r : EReal) = ((Real.sqrt r : ℝ) : EReal) := by
  rw [Ideal.sqrt_coe, if_neg (not_lt.mpr hr)]

/-- A real square root is nonnegative. -/
theorem sqrt_nonneg' (r : ℝ) : 0 ≤ Real.sqrt r := Real.sqrt_nonneg r

/-- The real square root of a positive real is positive. -/
theorem sqrt_pos' {r : ℝ} (hr : 0 < r) : 0 < Real.sqrt r := Real.sqrt_pos.mpr hr
/-- The real square root of a positive real is nonzero. -/
theorem sqrt_ne_zero'' {r : ℝ} (hr : 0 < r) : Real.sqrt r ≠ 0 := (Real.sqrt_pos.mpr hr).ne'

/-! ### The same, spelled with the float operations at the ideal reading -/

section FloatOpsForms
variable {φ : FTy}

/-- `addf` of two reals. -/
theorem addf_coe (a b : ℝ) : FloatOps.addf (F := Ideal) (φ := φ) ((a : ℝ) : EReal) ((b : ℝ) : EReal) = ((a + b : ℝ) : EReal) :=
  add_coe a b

/-- `subf` of two reals. -/
theorem subf_coe (a b : ℝ) : FloatOps.subf (F := Ideal) (φ := φ) ((a : ℝ) : EReal) ((b : ℝ) : EReal) = ((a - b : ℝ) : EReal) :=
  sub_coe a b

/-- `mulf` of two reals. -/
theorem mulf_coe (a b : ℝ) : FloatOps.mulf (F := Ideal) (φ := φ) ((a : ℝ) : EReal) ((b : ℝ) : EReal) = ((a * b : ℝ) : EReal) :=
  mul_coe a b

/-- `maximumf` of two reals. -/
theorem maximumf_coe (a b : ℝ) :
    FloatOps.maximumf (F := Ideal) (φ := φ) ((a : ℝ) : EReal) ((b : ℝ) : EReal) = ((max a b : ℝ) : EReal) :=
  max_coe a b

/-- `divf` of two reals, the divisor nonzero. -/
theorem divf_coe {b : ℝ} (hb : b ≠ 0) (a : ℝ) :
    FloatOps.divf (F := Ideal) (φ := φ) ((a : ℝ) : EReal) ((b : ℝ) : EReal) = ((a / b : ℝ) : EReal) :=
  div_coe hb a

/-- The host's quotient of two reals, the divisor nonzero. -/
theorem hostDivf_coe {b : ℝ} (hb : b ≠ 0) (a : ℝ) :
    FloatOps.hostDivf (F := Ideal) (φ := φ) ((a : ℝ) : EReal) ((b : ℝ) : EReal) = ((a / b : ℝ) : EReal) :=
  div_coe hb a

/-- The kernel's reciprocal square root of a positive real. -/
theorem rsqrtf_coe {r : ℝ} (hr : 0 < r) :
    FloatOps.rsqrt (F := Ideal) (φ := φ) ((r : ℝ) : EReal) = (((Real.sqrt r)⁻¹ : ℝ) : EReal) := rsqrt_coe hr

/-- The host's reciprocal square root of a positive real. -/
theorem hostRsqrt_coe {r : ℝ} (hr : 0 < r) :
    FloatOps.hostUnary (F := Ideal) (φ := φ) .rsqrt ((r : ℝ) : EReal) = (((Real.sqrt r)⁻¹ : ℝ) : EReal) := rsqrt_coe hr

/-- The kernel's square root of a nonnegative real. -/
theorem sqrtf_coe {r : ℝ} (hr : 0 ≤ r) :
    FloatOps.sqrt (F := Ideal) (φ := φ) ((r : ℝ) : EReal) = ((Real.sqrt r : ℝ) : EReal) := sqrt_coe hr

/-- The host's square root of a nonnegative real. -/
theorem hostSqrt_coe {r : ℝ} (hr : 0 ≤ r) :
    FloatOps.hostUnary (F := Ideal) (φ := φ) .sqrt ((r : ℝ) : EReal) = ((Real.sqrt r : ℝ) : EReal) := sqrt_coe hr

/-- A signed integer read as a float is the coercion of that integer. -/
theorem sitofp_coe {w : Nat} (b : BitVec w) :
    FloatOps.sitofp (F := Ideal) φ b = (((b.toInt : ℤ) : ℝ) : EReal) := rfl

end FloatOpsForms

/-! ### Comparisons of coercions -/

/-- Strict order between coercions is the real one. -/
theorem coe_lt_coe {a b : ℝ} : (a : EReal) < (b : EReal) ↔ a < b := EReal.coe_lt_coe_iff

/-- Order between coercions is the real one. -/
theorem coe_le_coe {a b : ℝ} : (a : EReal) ≤ (b : EReal) ↔ a ≤ b := EReal.coe_le_coe_iff

/-- Equality between coercions is the real one. -/
theorem coe_eq_coe {a b : ℝ} : (a : EReal) = (b : EReal) ↔ a = b := EReal.coe_eq_coe_iff

/-- The float comparison "greater than" of two reals answers the real comparison. -/
theorem cmp_ogt_coe (a b : ℝ) : Ideal.cmp .ogt (a : EReal) (b : EReal) = BitVec.ofBool (decide (b < a)) := by
  simp only [Ideal.cmp, EReal.coe_lt_coe_iff]

/-- "Greater than" holds between reals in that order: the comparison's bit is set. -/
theorem cmp_ogt_coe_of_lt {a b : ℝ} (h : b < a) : Ideal.cmp .ogt (a : EReal) (b : EReal) = 1#1 := by
  rw [cmp_ogt_coe, decide_eq_true h]; rfl

/-- The same through the float operation's name. -/
theorem cmpf_ogt_coe_of_lt {φ : FTy} {a b : ℝ} (h : b < a) :
    FloatOps.cmpf (F := Ideal) (φ := φ) .ogt ((a : ℝ) : EReal) ((b : ℝ) : EReal) = 1#1 :=
  cmp_ogt_coe_of_lt h

/-! ### The float literals of the two programs, as reals -/

/-- `0.0`. -/
theorem ofBits_zero : Ideal.ofBits .f32 0x00000000#32 = ((0 : ℝ) : EReal) := by
  rw [Ideal.ofBits_zero_f32, EReal.coe_zero]

/-- `1.0`. -/
theorem ofBits_one : Ideal.ofBits .f32 0x3F800000#32 = ((1 : ℝ) : EReal) := by
  simp [Ideal.ofBits, Ideal.ieee, -EReal.coe_mul]; norm_num

/-- `100000.0`. -/
theorem ofBits_100000 : Ideal.ofBits .f32 0x47C35000#32 = ((100000 : ℝ) : EReal) := by
  simp [Ideal.ofBits, Ideal.ieee, -EReal.coe_mul]; norm_num

/-- `2000.0`. -/
theorem ofBits_2000 : Ideal.ofBits .f32 0x44FA0000#32 = ((2000 : ℝ) : EReal) := by
  simp [Ideal.ofBits, Ideal.ieee, -EReal.coe_mul]; norm_num

/-- `5000.0`. -/
theorem ofBits_5000 : Ideal.ofBits .f32 0x459C4000#32 = ((5000 : ℝ) : EReal) := by
  simp [Ideal.ofBits, Ideal.ieee, -EReal.coe_mul]; norm_num

/-- `3000.0`. -/
theorem ofBits_3000 : Ideal.ofBits .f32 0x453B8000#32 = ((3000 : ℝ) : EReal) := by
  simp [Ideal.ofBits, Ideal.ieee, -EReal.coe_mul]; norm_num

/-- The quiet-NaN pattern denotes the junk value `⊥`. -/
theorem ofBits_nan : Ideal.ofBits .f32 0x7FC00000#32 = ⊥ := by
  simp [Ideal.ofBits, Ideal.ieee]

/-- The single-precision number nearest `10⁻⁵`: `10995116 · 2⁻⁴⁰`. -/
def eps5 : ℝ := 10995116 / 2 ^ 40

/-- The single-precision number nearest `10⁻¹²`: `9223372 · 2⁻⁶³`. -/
def eps12 : ℝ := 9223372 / 2 ^ 63

/-- `eps5` is positive. -/
theorem eps5_pos : 0 < eps5 := by unfold eps5; positivity

/-- `eps12` is positive. -/
theorem eps12_pos : 0 < eps12 := by unfold eps12; positivity

/-- The literal `1e-5`. -/
theorem ofBits_eps5 : Ideal.ofBits .f32 0x3727C5AC#32 = ((eps5 : ℝ) : EReal) := by
  simp [Ideal.ofBits, Ideal.ieee, -EReal.coe_mul, eps5]; norm_num

/-- The literal `1e-12`. -/
theorem ofBits_eps12 : Ideal.ofBits .f32 0x2B8CBCCC#32 = ((eps12 : ℝ) : EReal) := by
  simp [Ideal.ofBits, Ideal.ieee, -EReal.coe_mul, eps12]; norm_num

end Cert.Lib.ERealArith

end
-- ==== Proof.LibRealArr.lean ====
/-
  Arrays of extended reals every entry of which is a REAL number, and the closure of that property under the array
  operations of the two programs at the ideal reading: entrywise arithmetic, quotients by entrywise nonzero
  divisors, square roots of entrywise signed arguments, constants, re-indexings (every entry of the result is an
  entry of an operand), and the finite sums (reductions, matrix products, accumulating scatters). With the sign
  facts carried alongside (entrywise positive, nonnegative, nonzero), a whole computation on real inputs stays
  real, and its values can be moved into ℝ entry by entry.
-/
import Idealize.ShloMosaic.PureOps.Ideal
import Idealize.ShloMosaic.PureOps.Ideal.Laws
import Idealize.ShloMosaic.Lib.ValueIdx
import proofs.«170553_j13838384628107_1_alg».proof.Proof.LibERealArith

noncomputable section

namespace Cert.Val

open Idealize.ShloMosaic
open Cert.Lib.ERealArith
open scoped BigOperators

/-! ### Real scalars -/

/-- An extended real that is (the coercion of) a real number. -/
def IsReal (x : EReal) : Prop := ∃ r : ℝ, x = (r : EReal)

/-- An array of extended reals every entry of which is a real number. -/
def IsRealArr {S : Shape} (x : S.Idx → EReal) : Prop := ∀ i, ∃ r : ℝ, x i = (r : EReal)

/-- A coercion is real. -/
theorem isReal_coe (r : ℝ) : IsReal (r : EReal) := ⟨r, rfl⟩

/-- Zero is real. -/
theorem isReal_zero : IsReal 0 := ⟨0, zero_eq_coe⟩

/-- One is real. -/
theorem isReal_one : IsReal 1 := ⟨1, one_eq_coe⟩

/-- A real extended real is the coercion of its real part. -/
theorem IsReal.coe_toReal {x : EReal} (hx : IsReal x) : x = ((x.toReal : ℝ) : EReal) := by
  obtain ⟨r, rfl⟩ := hx
  rw [EReal.toReal_coe]

/-- The sum of two reals is real. -/
theorem IsReal.add {x y : EReal} (hx : IsReal x) (hy : IsReal y) : IsReal (x + y) := by
  obtain ⟨a, rfl⟩ := hx; obtain ⟨b, rfl⟩ := hy; exact ⟨a + b, add_coe a b⟩

/-- The difference of two reals is real. -/
theorem IsReal.sub {x y : EReal} (hx : IsReal x) (hy : IsReal y) : IsReal (x - y) := by
  obtain ⟨a, rfl⟩ := hx; obtain ⟨b, rfl⟩ := hy; exact ⟨a - b, sub_coe a b⟩

/-- The product of two reals is real. -/
theorem IsReal.mul {x y : EReal} (hx : IsReal x) (hy : IsReal y) : IsReal (x * y) := by
  obtain ⟨a, rfl⟩ := hx; obtain ⟨b, rfl⟩ := hy; exact ⟨a * b, mul_coe a b⟩

/-- The negative of a real is real. -/
theorem IsReal.neg {x : EReal} (hx : IsReal x) : IsReal (-x) := by
  obtain ⟨a, rfl⟩ := hx; exact ⟨-a, neg_coe a⟩

/-- The maximum of two reals is real. -/
theorem IsReal.max {x y : EReal} (hx : IsReal x) (hy : IsReal y) : IsReal (max x y) := by
  obtain ⟨a, rfl⟩ := hx; obtain ⟨b, rfl⟩ := hy; exact ⟨Max.max a b, max_coe a b⟩

/-- A finite sum of reals is real. -/
theorem IsReal.sum {ι : Type*} (s : Finset ι) (g : ι → EReal) (h : ∀ i ∈ s, IsReal (g i)) : IsReal (∑ i ∈ s, g i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- The quotient of a real by a nonzero real is real. -/
theorem IsReal.div {x y : EReal} (hx : IsReal x) (hy : ∃ r : ℝ, y = (r : EReal) ∧ r ≠ 0) : IsReal (Ideal.div x y) := by
  obtain ⟨a, rfl⟩ := hx; obtain ⟨b, rfl, hb⟩ := hy; exact ⟨a / b, div_coe hb a⟩

/-- The reciprocal square root of a positive real is a positive real. -/
theorem rsqrt_pos_real {x : EReal} (hx : ∃ r : ℝ, x = (r : EReal) ∧ 0 < r) :
    ∃ r : ℝ, Ideal.rsqrt x = (r : EReal) ∧ 0 < r := by
  obtain ⟨a, rfl, ha⟩ := hx
  exact ⟨(Real.sqrt a)⁻¹, rsqrt_coe ha, inv_pos.mpr (sqrt_pos' ha)⟩

/-- The square root of a nonnegative real is a nonnegative real. -/
theorem sqrt_nonneg_real {x : EReal} (hx : ∃ r : ℝ, x = (r : EReal) ∧ 0 ≤ r) :
    ∃ r : ℝ, Ideal.sqrt x = (r : EReal) ∧ 0 ≤ r := by
  obtain ⟨a, rfl, ha⟩ := hx
  exact ⟨Real.sqrt a, sqrt_coe ha, Real.sqrt_nonneg a⟩

/-- A positive real is a nonzero real. -/
theorem ne_zero_of_pos_real {x : EReal} (hx : ∃ r : ℝ, x = (r : EReal) ∧ 0 < r) : ∃ r : ℝ, x = (r : EReal) ∧ r ≠ 0 := by
  obtain ⟨a, h, ha⟩ := hx; exact ⟨a, h, ha.ne'⟩

/-- A positive real is a nonnegative real. -/
theorem nonneg_of_pos_real {x : EReal} (hx : ∃ r : ℝ, x = (r : EReal) ∧ 0 < r) : ∃ r : ℝ, x = (r : EReal) ∧ 0 ≤ r := by
  obtain ⟨a, h, ha⟩ := hx; exact ⟨a, h, ha.le⟩

/-- A real with a sign condition is real. -/
theorem isReal_of_pos_real {x : EReal} (hx : ∃ r : ℝ, x = (r : EReal) ∧ 0 < r) : IsReal x := by
  obtain ⟨a, h, _⟩ := hx; exact ⟨a, h⟩

/-- A nonnegative real is real. -/
theorem isReal_of_nonneg_real {x : EReal} (hx : ∃ r : ℝ, x = (r : EReal) ∧ 0 ≤ r) : IsReal x := by
  obtain ⟨a, h, _⟩ := hx; exact ⟨a, h⟩

/-- A nonzero real is real. -/
theorem isReal_of_ne_zero_real {x : EReal} (hx : ∃ r : ℝ, x = (r : EReal) ∧ r ≠ 0) : IsReal x := by
  obtain ⟨a, h, _⟩ := hx; exact ⟨a, h⟩

/-- The maximum of a real and a positive real is a positive real. -/
theorem max_pos_real_right {x c : EReal} (hx : IsReal x) (hc : ∃ r : ℝ, c = (r : EReal) ∧ 0 < r) :
    ∃ r : ℝ, max x c = (r : EReal) ∧ 0 < r := by
  obtain ⟨a, rfl⟩ := hx; obtain ⟨e, rfl, he⟩ := hc
  exact ⟨Max.max a e, max_coe a e, lt_of_lt_of_le he (le_max_right a e)⟩

/-- The maximum of a real and zero is a nonnegative real. -/
theorem max_zero_nonneg_real {x : EReal} (hx : IsReal x) : ∃ r : ℝ, max x 0 = (r : EReal) ∧ 0 ≤ r := by
  obtain ⟨a, rfl⟩ := hx
  exact ⟨Max.max a 0, by rw [zero_eq_coe, max_coe], le_max_right a 0⟩

/-- The sum of a nonnegative real and a positive real is a positive real. -/
theorem add_pos_real {x e : EReal} (hx : ∃ r : ℝ, x = (r : EReal) ∧ 0 ≤ r) (he : ∃ r : ℝ, e = (r : EReal) ∧ 0 < r) :
    ∃ r : ℝ, x + e = (r : EReal) ∧ 0 < r := by
  obtain ⟨a, rfl, ha⟩ := hx; obtain ⟨b, rfl, hb⟩ := he
  exact ⟨a + b, add_coe a b, add_pos_of_nonneg_of_pos ha hb⟩

/-- The product of a real with itself is a nonnegative real. -/
theorem mul_self_nonneg_real {x : EReal} (hx : IsReal x) : ∃ r : ℝ, x * x = (r : EReal) ∧ 0 ≤ r := by
  obtain ⟨a, rfl⟩ := hx; exact ⟨a * a, mul_coe a a, mul_self_nonneg a⟩

/-- A finite sum of nonnegative reals is a nonnegative real. -/
theorem sum_nonneg_real {ι : Type*} (s : Finset ι) (g : ι → EReal) (h : ∀ i ∈ s, ∃ r : ℝ, g i = (r : EReal) ∧ 0 ≤ r) :
    ∃ r : ℝ, (∑ i ∈ s, g i) = (r : EReal) ∧ 0 ≤ r := by
  classical
  induction s using Finset.induction_on with
  | empty => exact ⟨0, by simp, le_refl 0⟩
  | insert a s ha ih =>
    rw [Finset.sum_insert ha]
    obtain ⟨p, hp, hp0⟩ := h a (Finset.mem_insert_self a s)
    obtain ⟨q, hq, hq0⟩ := ih fun i hi => h i (Finset.mem_insert_of_mem hi)
    exact ⟨p + q, by rw [hp, hq, add_coe], add_nonneg hp0 hq0⟩

/-! ### The literals -/

/-- The literal 0.0 is real. -/
theorem isReal_ofBits_zero : IsReal (Ideal.ofBits .f32 0x00000000#32) := ⟨0, ofBits_zero⟩
/-- The literal 1.0 is a positive real. -/
theorem ofBits_one_pos : ∃ r : ℝ, Ideal.ofBits .f32 0x3F800000#32 = (r : EReal) ∧ 0 < r := ⟨1, ofBits_one, one_pos⟩
/-- The literal 100000.0 is a positive real. -/
theorem ofBits_100000_pos : ∃ r : ℝ, Ideal.ofBits .f32 0x47C35000#32 = (r : EReal) ∧ 0 < r :=
  ⟨100000, ofBits_100000, by norm_num⟩
/-- The literal 2000.0 is a positive real. -/
theorem ofBits_2000_pos : ∃ r : ℝ, Ideal.ofBits .f32 0x44FA0000#32 = (r : EReal) ∧ 0 < r := ⟨2000, ofBits_2000, by norm_num⟩
/-- The literal 5000.0 is a positive real. -/
theorem ofBits_5000_pos : ∃ r : ℝ, Ideal.ofBits .f32 0x459C4000#32 = (r : EReal) ∧ 0 < r := ⟨5000, ofBits_5000, by norm_num⟩
/-- The literal 3000.0 is a positive real. -/
theorem ofBits_3000_pos : ∃ r : ℝ, Ideal.ofBits .f32 0x453B8000#32 = (r : EReal) ∧ 0 < r := ⟨3000, ofBits_3000, by norm_num⟩
/-- The literal 1e-5 is a positive real. -/
theorem ofBits_eps5_pos : ∃ r : ℝ, Ideal.ofBits .f32 0x3727C5AC#32 = (r : EReal) ∧ 0 < r := ⟨eps5, ofBits_eps5, eps5_pos⟩
/-- The literal 1e-12 is a positive real. -/
theorem ofBits_eps12_pos : ∃ r : ℝ, Ideal.ofBits .f32 0x2B8CBCCC#32 = (r : EReal) ∧ 0 < r := ⟨eps12, ofBits_eps12, eps12_pos⟩

/-! ### Arrays: entrywise facts -/

section Arrays
variable {s t : Shape} {φ : FTy}

/-- A real array is entrywise the coercion of its real parts. -/
theorem IsRealArr.coe_toReal {x : s.Idx → EReal} (hx : IsRealArr x) (i : s.Idx) : x i = (((x i).toReal : ℝ) : EReal) :=
  IsReal.coe_toReal (hx i)

/-- The array of coercions of a real array is real. -/
theorem isRealArr_coe (f : s.Idx → ℝ) : IsRealArr (fun i => ((f i : ℝ) : EReal)) := fun i => ⟨f i, rfl⟩

/-- An array equal entrywise to coercions is real. -/
theorem isRealArr_of_eq {x : s.Idx → EReal} (f : s.Idx → ℝ) (h : ∀ i, x i = ((f i : ℝ) : EReal)) : IsRealArr x :=
  fun i => ⟨f i, h i⟩

/-- Entrywise positive reals are real. -/
theorem isRealArr_of_pos {x : s.Idx → EReal} (h : ∀ i, ∃ r : ℝ, x i = (r : EReal) ∧ 0 < r) : IsRealArr x :=
  fun i => isReal_of_pos_real (h i)

/-- Entrywise nonnegative reals are real. -/
theorem isRealArr_of_nonneg {x : s.Idx → EReal} (h : ∀ i, ∃ r : ℝ, x i = (r : EReal) ∧ 0 ≤ r) : IsRealArr x :=
  fun i => isReal_of_nonneg_real (h i)

/-- Entrywise positive reals are entrywise nonzero reals. -/
theorem ne_zero_of_pos_arr {x : s.Idx → EReal} (h : ∀ i, ∃ r : ℝ, x i = (r : EReal) ∧ 0 < r) :
    ∀ i, ∃ r : ℝ, x i = (r : EReal) ∧ r ≠ 0 := fun i => ne_zero_of_pos_real (h i)

/-! ### Entrywise arithmetic -/

/-- `addf` of real arrays is real. -/
theorem isRealArr_addf {x y : FVec Ideal s φ} (hx : IsRealArr x) (hy : IsRealArr y) : IsRealArr (addf x y) :=
  fun i => IsReal.add (hx i) (hy i)

/-- `subf` of real arrays is real. -/
theorem isRealArr_subf {x y : FVec Ideal s φ} (hx : IsRealArr x) (hy : IsRealArr y) : IsRealArr (subf x y) :=
  fun i => IsReal.sub (hx i) (hy i)

/-- `mulf` of real arrays is real. -/
theorem isRealArr_mulf {x y : FVec Ideal s φ} (hx : IsRealArr x) (hy : IsRealArr y) : IsRealArr (mulf x y) :=
  fun i => IsReal.mul (hx i) (hy i)

/-- `mulf` of a real array with itself (a square) is entrywise a nonnegative real. -/
theorem mulf_self_nonneg {x : FVec Ideal s φ} (hx : IsRealArr x) : ∀ i, ∃ r : ℝ, mulf x x i = (r : EReal) ∧ 0 ≤ r :=
  fun i => mul_self_nonneg_real (hx i)

/-- `maximumf` of real arrays is real. -/
theorem isRealArr_maximumf {x y : FVec Ideal s φ} (hx : IsRealArr x) (hy : IsRealArr y) : IsRealArr (maximumf x y) :=
  fun i => IsReal.max (hx i) (hy i)

/-- `maximumf` of a real array against an entrywise positive real array is entrywise a positive real. -/
theorem maximumf_pos_right {x c : FVec Ideal s φ} (hx : IsRealArr x) (hc : ∀ i, ∃ r : ℝ, c i = (r : EReal) ∧ 0 < r) :
    ∀ i, ∃ r : ℝ, maximumf x c i = (r : EReal) ∧ 0 < r := fun i => max_pos_real_right (hx i) (hc i)

/-- The kernel's `divf` of a real array by an entrywise nonzero real array is real. -/
theorem isRealArr_divf {x y : FVec Ideal s φ} (hx : IsRealArr x) (hy : ∀ i, ∃ r : ℝ, y i = (r : EReal) ∧ r ≠ 0) :
    IsRealArr (divf x y) := fun i => IsReal.div (hx i) (hy i)

/-- The host's quotient of a real array by an entrywise nonzero real array is real. -/
theorem isRealArr_hostDivf {x y : FVec Ideal s φ} (hx : IsRealArr x) (hy : ∀ i, ∃ r : ℝ, y i = (r : EReal) ∧ r ≠ 0) :
    IsRealArr (Host.divf x y) := fun i => IsReal.div (hx i) (hy i)

/-- The kernel's `divf` by the maximum of a real array with an entrywise positive real array is real. -/
theorem isRealArr_divf_max {x y c : FVec Ideal s φ} (hx : IsRealArr x) (hy : IsRealArr y)
    (hc : ∀ i, ∃ r : ℝ, c i = (r : EReal) ∧ 0 < r) : IsRealArr (divf x (maximumf y c)) :=
  isRealArr_divf hx (ne_zero_of_pos_arr (maximumf_pos_right hy hc))

/-- The host's quotient by the maximum of a real array with an entrywise positive real array is real. -/
theorem isRealArr_hostDivf_max {x y c : FVec Ideal s φ} (hx : IsRealArr x) (hy : IsRealArr y)
    (hc : ∀ i, ∃ r : ℝ, c i = (r : EReal) ∧ 0 < r) : IsRealArr (Host.divf x (maximumf y c)) :=
  isRealArr_hostDivf hx (ne_zero_of_pos_arr (maximumf_pos_right hy hc))

/-- The kernel's reciprocal square root of an entrywise positive real array is entrywise a positive real. -/
theorem rsqrt_pos_arr {x : FVec Ideal s φ} (hx : ∀ i, ∃ r : ℝ, x i = (r : EReal) ∧ 0 < r) :
    ∀ i, ∃ r : ℝ, rsqrt x i = (r : EReal) ∧ 0 < r := fun i => rsqrt_pos_real (hx i)

/-- The kernel's reciprocal square root of an entrywise positive real array is real. -/
theorem isRealArr_rsqrt {x : FVec Ideal s φ} (hx : ∀ i, ∃ r : ℝ, x i = (r : EReal) ∧ 0 < r) : IsRealArr (rsqrt x) :=
  isRealArr_of_pos (rsqrt_pos_arr hx)

/-- The host's reciprocal square root of an entrywise positive real array is entrywise a positive real. -/
theorem hostRsqrt_pos_arr {x : FVec Ideal s φ} (hx : ∀ i, ∃ r : ℝ, x i = (r : EReal) ∧ 0 < r) :
    ∀ i, ∃ r : ℝ, Host.rsqrt x i = (r : EReal) ∧ 0 < r := fun i => rsqrt_pos_real (hx i)

/-- The host's reciprocal square root of an entrywise positive real array is real. -/
theorem isRealArr_hostRsqrt {x : FVec Ideal s φ} (hx : ∀ i, ∃ r : ℝ, x i = (r : EReal) ∧ 0 < r) : IsRealArr (Host.rsqrt x) :=
  isRealArr_of_pos (hostRsqrt_pos_arr hx)

/-- The kernel's square root of an entrywise nonnegative real array is entrywise a nonnegative real. -/
theorem sqrt_nonneg_arr {x : FVec Ideal s φ} (hx : ∀ i, ∃ r : ℝ, x i = (r : EReal) ∧ 0 ≤ r) :
    ∀ i, ∃ r : ℝ, sqrt x i = (r : EReal) ∧ 0 ≤ r := fun i => sqrt_nonneg_real (hx i)

/-- The kernel's square root of an entrywise nonnegative real array is real. -/
theorem isRealArr_sqrt {x : FVec Ideal s φ} (hx : ∀ i, ∃ r : ℝ, x i = (r : EReal) ∧ 0 ≤ r) : IsRealArr (sqrt x) :=
  isRealArr_of_nonneg (sqrt_nonneg_arr hx)

/-- The host's square root of an entrywise nonnegative real array is entrywise a nonnegative real. -/
theorem hostSqrt_nonneg_arr {x : FVec Ideal s φ} (hx : ∀ i, ∃ r : ℝ, x i = (r : EReal) ∧ 0 ≤ r) :
    ∀ i, ∃ r : ℝ, Host.sqrt x i = (r : EReal) ∧ 0 ≤ r := fun i => sqrt_nonneg_real (hx i)

/-- The host's square root of an entrywise nonnegative real array is real. -/
theorem isRealArr_hostSqrt {x : FVec Ideal s φ} (hx : ∀ i, ∃ r : ℝ, x i = (r : EReal) ∧ 0 ≤ r) : IsRealArr (Host.sqrt x) :=
  isRealArr_of_nonneg (hostSqrt_nonneg_arr hx)

/-- A change of format is the identity: `truncf` of a real array is real. -/
theorem isRealArr_truncf {ψ : FTy} {a : FVec Ideal s φ} (h : ψ.bits < φ.bits) (ha : IsRealArr a) :
    IsRealArr (truncf ψ a h : FVec Ideal s ψ) := fun i => ha i

/-- A change of format is the identity: `extf` of a real array is real. -/
theorem isRealArr_extf {ψ : FTy} {a : FVec Ideal s φ} (h : φ.bits < ψ.bits) (ha : IsRealArr a) :
    IsRealArr (extf ψ a h : FVec Ideal s ψ) := fun i => ha i

/-- A signed integer array read as floats is real. -/
theorem isRealArr_sitofp {w : Nat} (x : IVec s w) : IsRealArr (sitofp (F := Ideal) φ x) :=
  fun i => ⟨((x i).toInt : ℝ), rfl⟩

/-- Where every condition bit is set, `select` is its first branch. -/
theorem select_of_one {α : Type} {c : IVec s 1} (a b : s.Idx → α) (hc : ∀ i, c i = 1#1) : select c a b = a := by
  funext i
  show Scalar.select (c i) (a i) (b i) = a i
  rw [hc i]; exact if_pos rfl

/-- `select` between two real arrays is real. -/
theorem isRealArr_select {c : IVec s 1} {a b : s.Idx → EReal} (ha : IsRealArr a) (hb : IsRealArr b) :
    IsRealArr (select c a b) := by
  intro i
  show ∃ r : ℝ, Scalar.select (c i) (a i) (b i) = (r : EReal)
  unfold Scalar.select
  split
  · exact ha i
  · exact hb i

/-- "Greater than" between entries that are reals in that order sets the bit. -/
theorem cmpf_ogt_one {a b : FVec Ideal s φ} {ra rb : ℝ} (i : s.Idx) (ha : a i = (ra : EReal)) (hb : b i = (rb : EReal))
    (h : rb < ra) : cmpf .ogt a b i = 1#1 := by
  show Ideal.cmp .ogt (a i) (b i) = 1#1
  rw [ha, hb]; exact cmp_ogt_coe_of_lt h

/-! ### Constants and broadcasts -/

/-- A broadcast scalar that is real is a real array. -/
theorem isRealArr_broadcast {x : EReal} (hx : IsReal x) : IsRealArr (broadcast t x) := fun _ => hx

/-- A broadcast positive real is entrywise a positive real. -/
theorem broadcast_pos {x : EReal} (hx : ∃ r : ℝ, x = (r : EReal) ∧ 0 < r) :
    ∀ i, ∃ r : ℝ, broadcast t x i = (r : EReal) ∧ 0 < r := fun _ => hx

/-- The constant array of 0.0 is real. -/
theorem isRealArr_constant_zero : IsRealArr (constant (F := Ideal) s .f32 0x00000000#32) := fun _ => isReal_ofBits_zero

/-- The constant array of 0.0 is entrywise the real zero. -/
theorem constant_zero_apply (i : s.Idx) : constant (F := Ideal) s .f32 0x00000000#32 i = ((0 : ℝ) : EReal) := ofBits_zero

/-- The constant array of 1.0 is entrywise a positive real. -/
theorem constant_one_pos : ∀ i, ∃ r : ℝ, constant (F := Ideal) s .f32 0x3F800000#32 i = (r : EReal) ∧ 0 < r :=
  fun _ => ofBits_one_pos

/-- The constant array of 100000.0 is entrywise a positive real. -/
theorem constant_100000_pos : ∀ i, ∃ r : ℝ, constant (F := Ideal) s .f32 0x47C35000#32 i = (r : EReal) ∧ 0 < r :=
  fun _ => ofBits_100000_pos

/-- The constant array of 2000.0 is entrywise a positive real. -/
theorem constant_2000_pos : ∀ i, ∃ r : ℝ, constant (F := Ideal) s .f32 0x44FA0000#32 i = (r : EReal) ∧ 0 < r :=
  fun _ => ofBits_2000_pos

/-- The constant array of 5000.0 is entrywise a positive real. -/
theorem constant_5000_pos : ∀ i, ∃ r : ℝ, constant (F := Ideal) s .f32 0x459C4000#32 i = (r : EReal) ∧ 0 < r :=
  fun _ => ofBits_5000_pos

/-- The constant array of 3000.0 is entrywise a positive real. -/
theorem constant_3000_pos : ∀ i, ∃ r : ℝ, constant (F := Ideal) s .f32 0x453B8000#32 i = (r : EReal) ∧ 0 < r :=
  fun _ => ofBits_3000_pos

/-- The constant array of 1e-5 is entrywise a positive real. -/
theorem constant_eps5_pos : ∀ i, ∃ r : ℝ, constant (F := Ideal) s .f32 0x3727C5AC#32 i = (r : EReal) ∧ 0 < r :=
  fun _ => ofBits_eps5_pos

/-- The constant array of 1e-12 is entrywise a positive real. -/
theorem constant_eps12_pos : ∀ i, ∃ r : ℝ, constant (F := Ideal) s .f32 0x2B8CBCCC#32 i = (r : EReal) ∧ 0 < r :=
  fun _ => ofBits_eps12_pos

/-- A constant array of a positive real literal is real. -/
theorem isRealArr_constant_of_pos {b : BitVec (FTy.f32).bits} (h : ∃ r : ℝ, Ideal.ofBits .f32 b = (r : EReal) ∧ 0 < r) :
    IsRealArr (constant (F := Ideal) s .f32 b) := fun _ => isReal_of_pos_real h

/-! ### Re-indexings: every entry of the result is an entry of an operand -/

/-- Reading a real array through any map of indices gives a real array. -/
theorem isRealArr_comp {x : s.Idx → EReal} (hx : IsRealArr x) (f : t.Idx → s.Idx) : IsRealArr (fun j => x (f j)) :=
  fun j => hx (f j)

/-- `broadcastInDim` of a real array is real. -/
theorem isRealArr_broadcastInDim {x : s.Idx → EReal} (dims : Fin s.rank → Fin t.rank) (h : s.BroadcastsInDim t dims)
    (hx : IsRealArr x) : IsRealArr (broadcastInDim t dims h x) := fun _ => hx _

/-- `broadcastInDim` of an entrywise positive real array is entrywise a positive real. -/
theorem broadcastInDim_pos {x : s.Idx → EReal} (dims : Fin s.rank → Fin t.rank) (h : s.BroadcastsInDim t dims)
    (hx : ∀ i, ∃ r : ℝ, x i = (r : EReal) ∧ 0 < r) : ∀ j, ∃ r : ℝ, broadcastInDim t dims h x j = (r : EReal) ∧ 0 < r :=
  fun _ => hx _

/-- `broadcastInDim` of an entrywise nonzero real array is entrywise a nonzero real. -/
theorem broadcastInDim_ne_zero {x : s.Idx → EReal} (dims : Fin s.rank → Fin t.rank) (h : s.BroadcastsInDim t dims)
    (hx : ∀ i, ∃ r : ℝ, x i = (r : EReal) ∧ r ≠ 0) : ∀ j, ∃ r : ℝ, broadcastInDim t dims h x j = (r : EReal) ∧ r ≠ 0 :=
  fun _ => hx _

/-- `broadcastTo` of a real array is real. -/
theorem isRealArr_broadcastTo {x : s.Idx → EReal} (h : s.Broadcasts t) (hx : IsRealArr x) : IsRealArr (broadcastTo t x h) :=
  fun _ => hx _

/-- `shapeCast` of a real array is real. -/
theorem isRealArr_shapeCast {x : s.Idx → EReal} (h : s.ShapeCasts t) (hx : IsRealArr x) : IsRealArr (shapeCast t x h) :=
  fun _ => hx _

/-- `extractStridedSlice` of a real array is real. -/
theorem isRealArr_extractStridedSlice {x : s.Idx → EReal} (off : Fin s.rank → Nat) (h : s.Slices off t) (hx : IsRealArr x) :
    IsRealArr (extractStridedSlice t off x h) := fun _ => hx _

/-- `transpose` of a real array is real. -/
theorem isRealArr_transpose {x : s.Idx → EReal} (perm : List (Fin s.rank)) (h : s.Transposes perm t) (hx : IsRealArr x) :
    IsRealArr (transpose t perm x h) := fun _ => hx _

/-- A gather from a real array is real: each result entry is an operand entry. -/
theorem isRealArr_gather {si : Shape} {w : Nat} (d : GatherDims s si t) {x : s.Idx → EReal} (idx : IVec si w) (hx : IsRealArr x) :
    IsRealArr (Host.gather d x idx) := fun _ => hx _

/-- A concatenation of real arrays is real. -/
theorem isRealArr_concatenate (a : Fin t.rank) (xs : List ((s : Shape) × (s.Idx → EReal)))
    (hc : Shape.Concatenates (xs.map (·.1)) t a) (h : ∀ p ∈ xs, IsRealArr p.2) : IsRealArr (concatenate t a xs hc) := by
  intro j
  unfold concatenate
  exact h _ (List.getElem_mem _) _

/-! ### Sums -/

/-- The host's sum of a real array from a real initial value is real. -/
theorem isRealArr_hostReduceAdd {axes : List (Fin s.rank)} {u : Shape} {x : FVec Ideal s φ} {init : u.Idx → Ideal φ}
    (h : s.ReducesTo axes t) (hu : 0 < u.numel) (hx : IsRealArr x) (hi : IsRealArr init) :
    IsRealArr (Host.reduceAdd x init h hu) := by
  intro j
  show IsReal (Ideal.hostReduceAdd h x (init (Shape.Idx.first hu)) j)
  unfold Ideal.hostReduceAdd
  exact IsReal.add (hi _) (IsReal.sum _ _ fun i _ => hx i)

/-- The host's sum of an entrywise nonnegative real array from a nonnegative real initial value is entrywise a nonnegative
    real. -/
theorem hostReduceAdd_nonneg {axes : List (Fin s.rank)} {u : Shape} {x : FVec Ideal s φ} {init : u.Idx → Ideal φ}
    (h : s.ReducesTo axes t) (hu : 0 < u.numel) (hx : ∀ i, ∃ r : ℝ, x i = (r : EReal) ∧ 0 ≤ r)
    (hi : ∀ i, ∃ r : ℝ, init i = (r : EReal) ∧ 0 ≤ r) :
    ∀ j, ∃ r : ℝ, Host.reduceAdd x init h hu j = (r : EReal) ∧ 0 ≤ r := by
  intro j
  show ∃ r : ℝ, Ideal.hostReduceAdd h x (init (Shape.Idx.first hu)) j = (r : EReal) ∧ 0 ≤ r
  unfold Ideal.hostReduceAdd
  obtain ⟨p, hp, hp0⟩ := hi (Shape.Idx.first hu)
  obtain ⟨q, hq, hq0⟩ := sum_nonneg_real (Finset.univ.filter (fun i => h.drop i = j)) x fun i _ => hx i
  exact ⟨p + q, by rw [hp, hq, add_coe], add_nonneg hp0 hq0⟩

/-- The kernel's sum (`vector.multi_reduction <add>`) of a real array is real. -/
theorem isRealArr_multiReduction_add {axes : List (Fin s.rank)} {src : FVec Ideal s φ} (acc : BitVec φ.bits)
    (h : s.Reduces axes t) (hφ : FKind.Formats φ) (hacc : acc = FKind.add.neutral φ hφ) (hx : IsRealArr src) :
    IsRealArr (multiReduction .add axes t src acc h hφ hacc) := by
  intro j
  show IsReal (Ideal.reduceAdd h src j)
  unfold Ideal.reduceAdd
  exact IsReal.sum _ _ fun i _ => hx i

/-- The kernel's matrix product of real operands onto a real accumulator is real. -/
theorem isRealArr_matmul {sl sr so : Shape} {φ₁ φ₂ : FTy} (d : DotDims sl sr so) (prec : Option ContractPrecision)
    {lhs : FVec Ideal sl φ₁} {rhs : FVec Ideal sr φ₂} {acc : FVec Ideal so .f32}
    (hl : IsRealArr lhs) (hr : IsRealArr rhs) (ha : IsRealArr acc) : IsRealArr (matmul d prec lhs rhs acc) := by
  intro j
  show IsReal (Ideal.matmul d lhs rhs acc j)
  unfold Ideal.matmul
  exact IsReal.add (ha j) (IsReal.sum _ _ fun k _ => IsReal.mul (hl _) (hr _))

/-- The host's matrix product of real operands is real. -/
theorem isRealArr_dotGeneral {sl sr so : Shape} {φ₁ φ₂ : FTy} (d : DotDims sl sr so) (prec : Option ContractPrecision)
    {lhs : FVec Ideal sl φ₁} {rhs : FVec Ideal sr φ₂} (hl : IsRealArr lhs) (hr : IsRealArr rhs) :
    IsRealArr (Host.dotGeneral d prec lhs rhs) := by
  intro j
  show IsReal (Ideal.matmul d lhs rhs (fun _ => 0) j)
  unfold Ideal.matmul
  exact IsReal.add isReal_zero (IsReal.sum _ _ fun k _ => IsReal.mul (hl _) (hr _))

/-- The host's accumulating scatter of real updates into a real operand is real. -/
theorem isRealArr_scatterAdd {si u : Shape} {w : Nat} (d : ScatterDims s si u) {x : FVec Ideal s φ} (idx : IVec si w)
    {upd : FVec Ideal u φ} (hx : IsRealArr x) (hu : IsRealArr upd) : IsRealArr (Host.scatterAdd d x idx upd) := by
  intro i
  show IsReal (Ideal.hostScatterAdd d x idx upd i)
  unfold Ideal.hostScatterAdd
  exact IsReal.add (hx i) (IsReal.sum _ _ fun j _ => hu j)

/-- The host's accumulating scatter of entrywise nonnegative real updates into an entrywise nonnegative real operand is
    entrywise a nonnegative real (a count of ones, for one). -/
theorem scatterAdd_nonneg {si u : Shape} {w : Nat} (d : ScatterDims s si u) {x : FVec Ideal s φ} (idx : IVec si w)
    {upd : FVec Ideal u φ} (hx : ∀ i, ∃ r : ℝ, x i = (r : EReal) ∧ 0 ≤ r) (hu : ∀ i, ∃ r : ℝ, upd i = (r : EReal) ∧ 0 ≤ r) :
    ∀ i, ∃ r : ℝ, Host.scatterAdd d x idx upd i = (r : EReal) ∧ 0 ≤ r := by
  intro i
  show ∃ r : ℝ, Ideal.hostScatterAdd d x idx upd i = (r : EReal) ∧ 0 ≤ r
  unfold Ideal.hostScatterAdd
  obtain ⟨p, hp, hp0⟩ := hx i
  obtain ⟨q, hq, hq0⟩ := sum_nonneg_real (Finset.univ.filter (fun j => d.resultIdx? j idx = some i)) upd fun j _ => hu j
  exact ⟨p + q, by rw [hp, hq, add_coe], add_nonneg hp0 hq0⟩

end Arrays

end Cert.Val

end
-- ==== Proof.Spec.lean ====
/-
  The Gaussian-mixture log-density of a row `x[n, :]` against the column `u` of the location table `l` and the
  scale table `s`, on the extended reals:

      -½ · Σ_d ((x[n,d] - l[d,u]) / s[d,u])²  -  ½ · Σ_d log (s[d,u]²)  -  D · ln(2π)/2 ,

  with the square expanded so that the sums over `d` are matrix products. Two arrangements of the expanded
  form are written out entry by entry:

    * `kernelVal`:  (-½ · Σ x²/s² + Σ x·(l/s²)) + ((-½ · Σ l²/s² - ½ · Σ log s²) - K)
    * `refVal`:     (-½ · ((Σ x²/s² - 2 · Σ x·(l/s²)) + Σ l²/s²) - ½ · Σ log s²) - K

  They differ by distributing `-½` over a sum of three terms and cancelling `-½ · (-2)`. On the extended
  reals that is a law of REAL numbers only (a product does not distribute over `⊤ + ⊥`), so it is proved
  where every sum is real: when every entry of `x`, `l`, `s` is real and no scale is zero. Then `1/s²`
  is real (the divisor is nonzero), `log s²` is real (the argument is positive), and finite sums of products
  of reals are real; the two arrangements then agree by the ring laws of ℝ.
-/
import Idealize.ShloMosaic.PureOps.Ideal
import Idealize.ShloMosaic.PureOps.Ideal.Laws
import Idealize.ShloMosaic.Lib.ValueIdx
import proofs.«170553_j13838384628107_1_alg».proof.Proof.LibERealArith
import proofs.«170553_j13838384628107_1_alg».proof.Proof.LibRealArr

noncomputable section

namespace Cert.Gmm

open Idealize.ShloMosaic Idealize.ShloMosaic.ValueIdx
open Cert.Lib.ERealArith Cert.Val
open scoped BigOperators

/-- The rows: `[131072, 256]`. -/
abbrev SX : Shape := ⟨2, ![131072, 256]⟩
/-- A parameter table: `[256, 512]`. -/
abbrev SP : Shape := ⟨2, ![256, 512]⟩
/-- The result: `[131072, 512]`. -/
abbrev SO : Shape := ⟨2, ![131072, 512]⟩

/-! ## The literals -/

/-- `1.0`. -/
abbrev cOne : EReal := Ideal.ofBits .f32 0x3F800000#32
/-- `0.0`. -/
abbrev cZero : EReal := Ideal.ofBits .f32 0x00000000#32
/-- `-0.5`. -/
abbrev cNegHalf : EReal := Ideal.ofBits .f32 0xBF000000#32
/-- `0.5`. -/
abbrev cHalf : EReal := Ideal.ofBits .f32 0x3F000000#32
/-- `2.0`. -/
abbrev cTwo : EReal := Ideal.ofBits .f32 0x40000000#32
/-- The single-precision number nearest `256 · ln(2π)/2`. -/
abbrev cNorm : EReal := Ideal.ofBits .f32 0x436B3F8E#32

/-- `-0.5` is the real `-1/2`. -/
theorem cNegHalf_eq : cNegHalf = ((-(1 / 2) : ℝ) : EReal) := by
  simp [Ideal.ofBits, Ideal.ieee, -EReal.coe_mul]; norm_num

/-- `0.5` is the real `1/2`. -/
theorem cHalf_eq : cHalf = ((1 / 2 : ℝ) : EReal) := by
  simp [Ideal.ofBits, Ideal.ieee, -EReal.coe_mul]; norm_num

/-- `2.0` is the real `2`. -/
theorem cTwo_eq : cTwo = ((2 : ℝ) : EReal) := by
  simp [Ideal.ofBits, Ideal.ieee, -EReal.coe_mul]; norm_num

/-- The normalising constant is a real number (its value plays no part). -/
theorem cNorm_real : IsReal cNorm := by
  refine ⟨(15417230 : ℝ) / 2 ^ 16, ?_⟩
  simp [Ideal.ofBits, Ideal.ieee, -EReal.coe_mul]; norm_num

/-! ## The four sums over `d` -/

/-- `1 / s[d,u]²`. -/
def invSq (s : SP.Idx → EReal) (j : SP.Idx) : EReal := Ideal.div cOne (s j * s j)

/-- `Σ_d x[n,d]² / s[d,u]²`. -/
def quadX (x : SX.Idx → EReal) (s : SP.Idx → EReal) (n : Fin 131072) (u : Fin 512) : EReal :=
  ∑ k : Fin 256, (x (ix2 n k) * x (ix2 n k)) * invSq s (ix2 k u)

/-- `Σ_d x[n,d] · (l[d,u] / s[d,u]²)`. -/
def cross (x : SX.Idx → EReal) (l s : SP.Idx → EReal) (n : Fin 131072) (u : Fin 512) : EReal :=
  ∑ k : Fin 256, x (ix2 n k) * (l (ix2 k u) * invSq s (ix2 k u))

/-- `0 + Σ_d l[d,u]² / s[d,u]²`. -/
def quadL (l s : SP.Idx → EReal) (u : Fin 512) : EReal :=
  cZero + ∑ k : Fin 256, (l (ix2 k u) * l (ix2 k u)) * invSq s (ix2 k u)

/-- `0 + Σ_d log (s[d,u]²)`. -/
def logDet (s : SP.Idx → EReal) (u : Fin 512) : EReal :=
  cZero + ∑ k : Fin 256, Ideal.log (s (ix2 k u) * s (ix2 k u))

/-! ## The two arrangements -/

/-- The part that does not depend on the row: `(-½ · Σ l²/s² - ½ · Σ log s²) - K`. -/
def colConst (l s : SP.Idx → EReal) (u : Fin 512) : EReal :=
  (cNegHalf * quadL l s u - cHalf * logDet s u) - cNorm

/-- The row-dependent products first, the per-column constant added last. -/
def kernelVal (x : SX.Idx → EReal) (l s : SP.Idx → EReal) (n : Fin 131072) (u : Fin 512) : EReal :=
  (cNegHalf * quadX x s n u + cross x l s n u) + colConst l s u

/-- The quadratic form assembled first, then scaled by `-½`. -/
def refVal (x : SX.Idx → EReal) (l s : SP.Idx → EReal) (n : Fin 131072) (u : Fin 512) : EReal :=
  (cNegHalf * ((quadX x s n u - cTwo * cross x l s n u) + quadL l s u) - cHalf * logDet s u) - cNorm

/-! ## Where the two agree -/

/-- The domain: every entry real, no scale zero. -/
structure Dom (x : SX.Idx → EReal) (l s : SP.Idx → EReal) : Prop where
  hx : IsRealArr x
  hl : IsRealArr l
  hs : ∀ j, ∃ r : ℝ, s j = (r : EReal) ∧ r ≠ 0

variable {x : SX.Idx → EReal} {l s : SP.Idx → EReal}

/-- A nonzero real scale has a positive real square. -/
theorem sq_pos_real (h : Dom x l s) (j : SP.Idx) : ∃ r : ℝ, s j * s j = (r : EReal) ∧ 0 < r := by
  obtain ⟨r, hr, hr0⟩ := h.hs j
  exact ⟨r * r, by rw [hr, mul_coe], mul_self_pos.mpr hr0⟩

/-- `1/s²` is real. -/
theorem invSq_real (h : Dom x l s) (j : SP.Idx) : IsReal (invSq s j) :=
  IsReal.div (isReal_of_pos_real ofBits_one_pos) (ne_zero_of_pos_real (sq_pos_real h j))

/-- `log s²` is real. -/
theorem logSq_real (h : Dom x l s) (j : SP.Idx) : IsReal (Ideal.log (s j * s j)) := by
  obtain ⟨r, hr, hr0⟩ := sq_pos_real h j
  exact ⟨Real.log r, by rw [hr, Ideal.log_coe, if_neg (not_le.mpr hr0)]⟩

theorem quadX_real (h : Dom x l s) (n : Fin 131072) (u : Fin 512) : IsReal (quadX x s n u) :=
  IsReal.sum _ _ fun k _ => IsReal.mul (IsReal.mul (h.hx _) (h.hx _)) (invSq_real h _)

theorem cross_real (h : Dom x l s) (n : Fin 131072) (u : Fin 512) : IsReal (cross x l s n u) :=
  IsReal.sum _ _ fun k _ => IsReal.mul (h.hx _) (IsReal.mul (h.hl _) (invSq_real h _))

theorem quadL_real (h : Dom x l s) (u : Fin 512) : IsReal (quadL l s u) :=
  IsReal.add isReal_ofBits_zero (IsReal.sum _ _ fun k _ => IsReal.mul (IsReal.mul (h.hl _) (h.hl _)) (invSq_real h _))

theorem logDet_real (h : Dom x l s) (u : Fin 512) : IsReal (logDet s u) :=
  IsReal.add isReal_ofBits_zero (IsReal.sum _ _ fun k _ => logSq_real h _)

/-- On the domain the two arrangements are one real number: `-½ · ((a - 2b) + c) = (-½ · a + b) + (-½ · c)`. -/
theorem kernelVal_eq_refVal (h : Dom x l s) (n : Fin 131072) (u : Fin 512) :
    kernelVal x l s n u = refVal x l s n u := by
  obtain ⟨a, ha⟩ := quadX_real h n u
  obtain ⟨b, hb⟩ := cross_real h n u
  obtain ⟨c, hc⟩ := quadL_real h u
  obtain ⟨d, hd⟩ := logDet_real h u
  obtain ⟨e, he⟩ := cNorm_real
  unfold kernelVal refVal colConst
  rw [ha, hb, hc, hd, he, cNegHalf_eq, cHalf_eq, cTwo_eq]
  simp only [mul_coe, add_coe, sub_coe]
  exact congrArg _ (by ring)

end Cert.Gmm

end
-- ==== Proof.KernelHost.lean ====
/-
  What the kernel's region finds in the three arrays the host code computes before it:

    * the table of reciprocal squared scales `1/s²`,
    * the table of scaled locations `l · (1/s²)`,
    * the row vector of per-column constants `(-½ · Σ_d l²/s² - ½ · Σ_d log s²) - K`, a `[512]` vector recast as `[1, 512]`,

  each read at an entry. The narrowing of the two tables to a shorter float format is the identity at the ideal
  reading; a column sum is its initial value plus the sum over the summed coordinate.
-/
import proofs.«170553_j13838384628107_1_alg».proof.Proof.Gen.KernelIdeal.Frame
import proofs.«170553_j13838384628107_1_alg».proof.Proof.Spec
import Idealize.ShloMosaic.Lib.StableHlo.Run
import Idealize.ShloMosaic.Lib.Pipeline.Value
import Idealize.ShloMosaic.Lib.ValueIdx
import Idealize.ShloMosaic.PureOps.Ideal.Laws

noncomputable section

namespace Cert.Gmm.Host

open Idealize.ShloMosaic Idealize.ShloMosaic.TcCoe Idealize.SL.Sem Idealize.ShloMosaic.ValueIdx
open Cert.KernelIdeal Cert.KernelIdeal.Gen Idealize.ShloMosaic.StableHlo
open scoped BigOperators

variable (m : (ℓ : Loc nD τ sig) → Buf (Elt Ideal) ℓ)

/-- The rows `x` as launched. -/
abbrev argX (c : Dev nD) : S131072x256.Idx → EReal := m ((c : Thread nD τ).loc main_arg0)
/-- The locations `l` as launched. -/
abbrev argL (c : Dev nD) : S256x512.Idx → EReal := m ((c : Thread nD τ).loc main_arg1)
/-- The scales `s` as launched. -/
abbrev argS (c : Dev nD) : S256x512.Idx → EReal := m ((c : Thread nD τ).loc main_arg2)

/-- A sum down the columns of a `[256, 512]` table from the initial value `0.0`, read at column `q`. -/
theorem colSum_apply (y : S256x512.Idx → EReal) (q : Fin 512) :
    Host.reduceAdd (F := Ideal) (φ := .f32) y (constant (F := Ideal) S_ .f32 0x00000000#32) reducesTo_S256x512_S512_d0 h_S_ (ix1 q)
      = cZero + ∑ k : Fin 256, y (ix2 k q) := by
  simp only [Host.reduceAdd, Ideal.hostReduceAdd_def]
  rw [Ideal.hostReduceAdd_single reducesTo_S256x512_S512_d0 (by decide)]
  refine congrArg (_ + ·) (Finset.sum_congr rfl fun k _ => ?_)
  exact congrArg y (funext fun a => Fin.ext (by match a with | ⟨0, _⟩ => rfl | ⟨1, _⟩ => rfl))

/-- The first table the region stages holds `1/s²`. -/
theorem V_invSq (c : Dev nD) (j : S256x512.Idx) :
    (V m c main_v17 : S256x512.Idx → EReal) j = invSq (argS m c) j := by
  have e : (V m c main_v17 : S256x512.Idx → EReal)
      = truncf .bf16 (Host.divf (broadcastInDim S256x512 ![] bcast_S_S256x512 (constant (F := Ideal) S_ .f32 0x3F800000#32))
          (mulf (argS m c) (argS m c))) bitsLt_bf16_f32 := by
    dsimp only [V, hostOps0]; after_results
  rw [e]; rfl

/-- The second table holds `l · (1/s²)`. -/
theorem V_scaled (c : Dev nD) (j : S256x512.Idx) :
    (V m c main_v18 : S256x512.Idx → EReal) j = argL m c j * invSq (argS m c) j := by
  have e : (V m c main_v18 : S256x512.Idx → EReal)
      = truncf .bf16 (mulf (argL m c) (Host.divf (broadcastInDim S256x512 ![] bcast_S_S256x512 (constant (F := Ideal) S_ .f32 0x3F800000#32))
          (mulf (argS m c) (argS m c)))) bitsLt_bf16_f32 := by
    dsimp only [V, hostOps0]; after_results
  rw [e]; rfl

/-- The per-column constants as the `[512]` vector the host code computes. -/
def constVec (c : Dev nD) : S512.Idx → EReal :=
  subf (φ := .f32)
    (subf (φ := .f32)
      (mulf (φ := .f32) (broadcastInDim S512 ![] bcast_S_S512 (constant (F := Ideal) S_ .f32 0xBF000000#32))
        (Host.reduceAdd (F := Ideal) (φ := .f32)
          (mulf (φ := .f32) (mulf (φ := .f32) (argL m c) (argL m c))
            (Host.divf (φ := .f32) (broadcastInDim S256x512 ![] bcast_S_S256x512 (constant (F := Ideal) S_ .f32 0x3F800000#32))
              (mulf (φ := .f32) (argS m c) (argS m c))))
          (constant (F := Ideal) S_ .f32 0x00000000#32) reducesTo_S256x512_S512_d0 h_S_))
      (mulf (φ := .f32) (broadcastInDim S512 ![] bcast_S_S512 (constant (F := Ideal) S_ .f32 0x3F000000#32))
        (Host.reduceAdd (F := Ideal) (φ := .f32) (Host.log (φ := .f32) (mulf (φ := .f32) (argS m c) (argS m c)))
          (constant (F := Ideal) S_ .f32 0x00000000#32) reducesTo_S256x512_S512_d0 h_S_)))
    (broadcastInDim S512 ![] bcast_S_S512 (constant (F := Ideal) S_ .f32 0x436B3F8E#32))

/-- The vector at column `q` is `colConst` there. -/
theorem constVec_apply (c : Dev nD) (q : Fin 512) : constVec m c (ix1 q) = colConst (argL m c) (argS m c) q := by
  unfold constVec
  show (cNegHalf * Host.reduceAdd (F := Ideal) (φ := .f32) _ _ reducesTo_S256x512_S512_d0 h_S_ (ix1 q)
      - cHalf * Host.reduceAdd (F := Ideal) (φ := .f32) _ _ reducesTo_S256x512_S512_d0 h_S_ (ix1 q)) - cNorm = _
  rw [colSum_apply, colSum_apply]
  rfl

/-- The third array the region stages is that vector recast as a one-row matrix. -/
theorem V_const (c : Dev nD) (q : Fin 512) :
    (V m c main_v16 : S1x512.Idx → EReal) (ix2 (0 : Fin 1) q) = colConst (argL m c) (argS m c) q := by
  have e : (V m c main_v16 : S1x512.Idx → EReal) = shapeCast S1x512 (constVec m c) shapeCasts_S512_S1x512 := by
    dsimp only [V, hostOps0]; after_results; rfl
  rw [e, ← constVec_apply]
  refine shapeCast_apply (constVec m c) shapeCasts_S512_S1x512 (ix2 (0 : Fin 1) q) (ix1 q) ?_
  rw [Shape.rowMajor_val_two, Shape.rowMajor_val_one]
  show q.val = 0 * 512 + q.val
  omega

end Cert.Gmm.Host

end
-- ==== Proof.KernelValue.lean ====
/-
  The kernel's result array as one function of its arguments. The grid has 32 points; point `t` is given rows
  `4096·t … 4096·t + 4095` of `x` and the three host-computed arrays whole, and writes rows `4096·t …` of the result.
  Entry `(p, q)` of what point `t` writes is the body's stored value at `(p, q)`; with the blocks read back as
  entries of the arrays it is `kernelVal` at row `4096·t + p`, column `q`. The 32 row blocks cover the result, so the
  array ends holding `kernelVal` at every entry.
-/
import proofs.«170553_j13838384628107_1_alg».proof.Proof.Gen.KernelIdeal.Value
import proofs.«170553_j13838384628107_1_alg».proof.Proof.KernelBody
import proofs.«170553_j13838384628107_1_alg».proof.Proof.KernelHost
import proofs.«170553_j13838384628107_1_alg».proof.Proof.Spec
import Idealize.ShloMosaic.Lib.Pipeline.Value

noncomputable section

namespace Cert.Gmm.Kernel

open Idealize.ShloMosaic Idealize.ShloMosaic.TcCoe Idealize.SL.Sem Idealize.ShloMosaic.ValueIdx
open Cert.KernelIdeal Cert.KernelIdeal.Gen Cert.KernelIdeal.Value Cert.Gmm.Host
open Idealize.ShloMosaic.Pipeline (Dat)
open scoped BigOperators

variable (m : (ℓ : Loc nD τ sig) → Buf (Elt Ideal) ℓ) (ρ : Dev nD → PrngReg)

theorem hz : (![0, 0] : Fin 2 → Nat) = fun _ => 0 := funext fun a => by fin_cases a <;> rfl

/-- The result array: `kernelVal` of the arguments at every entry. -/
def result (c : Dev nD) : S131072x512.Idx → EReal :=
  fun i => kernelVal (argX m c) (argL m c) (argS m c) (i 0) (i 1)

/-- The block indices at point `t`: the rows and the result move with `t`, the three host-computed arrays stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row `p` of point `t`'s block is row `4096·t + p` of the array. -/
def row (t : Fin cfg0.N) (p : Fin 4096) : Fin 131072 :=
  ⟨4096 * t.val + p.val, by have ht := t.isLt; have e : cfg0.N = 32 := N_0; have hp := p.isLt; omega⟩

/-- The rows' block at point `t`, at `(p, k)`, is `x` at `(4096·t + p, k)`. -/
theorem iblk0_apply (c : Dev nD) (t : Fin cfg0.N) (p : Fin 4096) (k : Fin 256) :
    iblk m c 0 t (ix2 p k) = argX m c (ix2 (row t p) k) := by
  obtain ⟨e0, e1, -⟩ := idx_facts t
  unfold iblk
  rw [View.read_apply]
  show V m c main_arg0 _ = _
  rw [V_main_arg0]
  refine congrArg (argX m c) (funext fun a => Fin.ext ?_)
  match a with
  | ⟨0, _⟩ => show win0_0.index t (0 : Fin 2) * 4096 + 1 * p.val = 4096 * t.val + p.val; rw [e0]; omega
  | ⟨1, _⟩ => show win0_0.index t (1 : Fin 2) * 256 + 1 * k.val = k.val; rw [e1]; omega

/-- The first table's block is the whole table: `1/s²`. -/
theorem iblk1_apply (c : Dev nD) (t : Fin cfg0.N) (k : Fin 256) (q : Fin 512) :
    iblk m c 1 t (ix2 k q) = invSq (argS m c) (ix2 k q) := by
  obtain ⟨-, -, e0, e1, -⟩ := idx_facts t
  unfold iblk
  rw [View.read_apply, ← V_invSq m c (ix2 k q)]
  show V m c main_v17 _ = _
  refine congrArg (V m c main_v17 : S256x512.Idx → EReal) (funext fun a => Fin.ext ?_)
  match a with
  | ⟨0, _⟩ => show win0_1.index t (0 : Fin 2) * 256 + 1 * k.val = k.val; rw [e0]; omega
  | ⟨1, _⟩ => show win0_1.index t (1 : Fin 2) * 512 + 1 * q.val = q.val; rw [e1]; omega

/-- The second table's block is the whole table: `l · (1/s²)`. -/
theorem iblk2_apply (c : Dev nD) (t : Fin cfg0.N) (k : Fin 256) (q : Fin 512) :
    iblk m c 2 t (ix2 k q) = argL m c (ix2 k q) * invSq (argS m c) (ix2 k q) := by
  obtain ⟨-, -, -, -, e0, e1, -⟩ := idx_facts t
  unfold iblk
  rw [View.read_apply, ← V_scaled m c (ix2 k q)]
  show V m c main_v18 _ = _
  refine congrArg (V m c main_v18 : S256x512.Idx → EReal) (funext fun a => Fin.ext ?_)
  match a with
  | ⟨0, _⟩ => show win0_2.index t (0 : Fin 2) * 256 + 1 * k.val = k.val; rw [e0]; omega
  | ⟨1, _⟩ => show win0_2.index t (1 : Fin 2) * 512 + 1 * q.val = q.val; rw [e1]; omega

/-- The row vector's block is the whole vector: the per-column constant. -/
theorem iblk3_apply (c : Dev nD) (t : Fin cfg0.N) (q : Fin 512) :
    iblk m c 3 t (ix2 (0 : Fin 1) q) = colConst (argL m c) (argS m c) q := by
  obtain ⟨-, -, -, -, -, -, e0, e1, -⟩ := idx_facts t
  unfold iblk
  rw [View.read_apply, ← V_const m c q]
  show V m c main_v16 _ = _
  refine congrArg (V m c main_v16 : S1x512.Idx → EReal) (funext fun a => Fin.ext ?_)
  match a with
  | ⟨0, _⟩ => show win0_3.index t (0 : Fin 2) * 1 + 1 * 0 = 0; rw [e0]
  | ⟨1, _⟩ => show win0_3.index t (1 : Fin 2) * 512 + 1 * q.val = q.val; rw [e1]; omega

/-- What point `t` writes back is block `t` of `result`. -/
theorem flushed_eq (c : Dev nD) (t : Fin cfg0.N) :
    (dats m 0 c).flushed 4 t = ((cfg0.win 4).blk t).view.read (Elt Ideal) (result m c) := by
  rw [Value.flushed4]
  unfold out0_4
  rw [View.canon_unit_zero hz]
  simp only [View.ld_unit_zero (S := S4096x256) hz, View.ld_unit_zero (S := S256x512) hz, View.ld_unit_zero (S := S1x512) hz]
  funext j
  obtain ⟨p, q, rfl⟩ : ∃ (p : Fin 4096) (q : Fin 512), j = ix2 p q := ⟨j 0, j 1, eq_ix2 j⟩
  refine (Body.pay_apply (iblk m c 0 t) (iblk m c 1 t) (iblk m c 2 t) (iblk m c 3 t) p q).trans ?_
  obtain ⟨-, -, -, -, -, -, -, -, e0, e1⟩ := idx_facts t
  rw [View.read_apply]
  have hemb : ((cfg0.win 4).blk t).view.emb (ix2 p q) = ix2 (row t p) q := by
    funext a
    refine Fin.ext ?_
    match a with
    | ⟨0, _⟩ => show win0_4.index t (0 : Fin 2) * 4096 + 1 * p.val = 4096 * t.val + p.val; rw [e0]; omega
    | ⟨1, _⟩ => show win0_4.index t (1 : Fin 2) * 512 + 1 * q.val = q.val; rw [e1]; omega
  rw [hemb]
  show _ = kernelVal (argX m c) (argL m c) (argS m c) (row t p) q
  unfold kernelVal quadX cross
  simp only [iblk0_apply, iblk1_apply, iblk2_apply, iblk3_apply]

/-- An index is in point `t`'s block iff each coordinate is in the block's range. -/
theorem mem_blk (t : Fin cfg0.N) (i : S131072x512.Idx) :
    i ∈ ((cfg0.win 4).blk t).view.set ↔ ∀ a : Fin 2, win0_4.index t a * S4096x512.size a ≤ (i a).val ∧ (i a).val < win0_4.index t a * S4096x512.size a + S4096x512.size a := by
  show i ∈ ((View.whole main_v19).slice (win0_4.rect t)).set ↔ _
  rw [View.set_slice_whole, Rect.mem_set_unit]
  exact Iff.rfl

/-- Every row of the result lies in the block of the point `row / 4096`. -/
theorem cover (i : S131072x512.Idx) : ∃ t : Fin cfg0.N, (cfg0.win 4).flush t = true ∧ i ∈ ((cfg0.win 4).blk t).view.set := by
  have hi0 : (i 0).val < 131072 := (i 0).isLt
  have hi1 : (i 1).val < 512 := (i 1).isLt
  let t : Fin cfg0.N := ⟨(i 0).val / 4096, by rw [show cfg0.N = 32 from N_0]; omega⟩
  obtain ⟨-, -, -, -, -, -, -, -, e0, e1⟩ := idx_facts t
  have ht : t.val = (i 0).val / 4096 := rfl
  refine ⟨t, flush0_4 t, ?_⟩
  rw [mem_blk]
  intro a
  match a with
  | ⟨0, _⟩ => show win0_4.index t (0 : Fin 2) * 4096 ≤ (i 0).val ∧ (i 0).val < win0_4.index t (0 : Fin 2) * 4096 + 4096; rw [e0, ht]; omega
  | ⟨1, _⟩ => show win0_4.index t (1 : Fin 2) * 512 ≤ (i 1).val ∧ (i 1).val < win0_4.index t (1 : Fin 2) * 512 + 512; rw [e1]; omega

/-- The result array after the run. -/
theorem final (c : Dev nD) : (dats m 0 c).arrAt 4 cfg0.N = result m c :=
  (dats m 0 c).arrAt_eq_of_cover 4 (result m c) (fun t _ => flushed_eq m c t) cover

/-- The run, read: the result array at `result`, the arguments unchanged. -/
theorem run : θ_run defs (onTc (τ := τ) (main (F := Ideal))) ⟨m, fun _ => 0, ρ⟩ fun r => ∀ c : Dev nD,
      r.2.mem ((c : Thread nD τ).loc main_v19) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

end Cert.Gmm.Kernel

end
-- ==== Proof.RefValue.lean ====
/-
  The reference's result, read at an entry `(n, u)`: the quadratic form `(Σ x²/s² - 2 · Σ x·(l/s²)) + Σ l²/s²`
  assembled first, scaled by `-½`, then `½ · Σ log s²` and the normalising constant subtracted. Each host operation
  is read at an index by its generated reading; what is written here is that the composed index maps of the two
  matrix products, the two column sums and their broadcasts are the plain coordinates `(n, d)`, `(d, u)`.
-/
import proofs.«170553_j13838384628107_1_alg».proof.Proof.Gen.ReferenceIdeal.Read
import proofs.«170553_j13838384628107_1_alg».proof.Proof.Spec

noncomputable section

namespace Cert.Gmm.Ref

open Idealize.ShloMosaic Idealize.ShloMosaic.ValueIdx
open Cert.ReferenceIdeal Cert.ReferenceIdeal.Gen Cert.ReferenceIdeal.Read
open scoped BigOperators

/-- The left operand of the first product is read at `(n, d)`. -/
theorem lidx4 (i : S131072x512.Idx) (k : Fin 256) : lidx_main_v4 i k = ix2 (i 0) k :=
  funext fun a => Fin.ext (by match a with | ⟨0, _⟩ => rfl | ⟨1, _⟩ => rfl)
/-- The right operand of the first product is read at `(d, u)`. -/
theorem ridx4 (i : S131072x512.Idx) (k : Fin 256) : ridx_main_v4 i k = ix2 k (i 1) :=
  funext fun a => Fin.ext (by match a with | ⟨0, _⟩ => rfl | ⟨1, _⟩ => rfl)
/-- The left operand of the second product is read at `(n, d)`. -/
theorem lidx6 (i : S131072x512.Idx) (k : Fin 256) : lidx_main_v6 i k = ix2 (i 0) k :=
  funext fun a => Fin.ext (by match a with | ⟨0, _⟩ => rfl | ⟨1, _⟩ => rfl)
/-- The right operand of the second product is read at `(d, u)`. -/
theorem ridx6 (i : S131072x512.Idx) (k : Fin 256) : ridx_main_v6 i k = ix2 k (i 1) :=
  funext fun a => Fin.ext (by match a with | ⟨0, _⟩ => rfl | ⟨1, _⟩ => rfl)
/-- The column sum of `l²/s²`, broadcast over the rows, is read at `(d, u)`. -/
theorem idx12 (i : S131072x512.Idx) (k : Fin 256) : idx_main_v12 (idx_main_v13 (idx_main_v14 i)) k = ix2 k (i 1) :=
  funext fun a => Fin.ext (by match a with | ⟨0, _⟩ => rfl | ⟨1, _⟩ => rfl)
/-- The column sum of `log s²`, broadcast over the rows, is read at `(d, u)`. -/
theorem idx18 (i : S131072x512.Idx) (k : Fin 256) : idx_main_v18 (idx_main_v21 (idx_main_v24 i)) k = ix2 k (i 1) :=
  funext fun a => Fin.ext (by match a with | ⟨0, _⟩ => rfl | ⟨1, _⟩ => rfl)

/-- The reference's result at the entry `i = (n, u)` is `refVal` there. -/
theorem val_apply (x : S131072x256.Idx → EReal) (l s : S256x512.Idx → EReal) (i : S131072x512.Idx) :
    val_main_v27 (F := Ideal) x l s i = refVal x l s (i 0) (i 1) := by
  rw [val_main_v27_apply, val_main_v25_apply, val_main_v20_apply, val_main_v15_apply, val_main_v9_apply,
    val_main_v4_apply, val_main_v8_apply, val_main_v6_apply, val_main_v14_apply, val_main_v13_apply, val_main_v12_apply,
    val_main_v24_apply, val_main_v23_apply, val_main_v21_apply, val_main_v18_apply, val_main_v19_apply, val_main_v7_apply,
    val_main_v22_apply, val_main_v26_apply]
  simp only [lidx4, ridx4, lidx6, ridx6, idx12, idx18, val_main_v3_apply, val_main_v2_apply, val_main_v1_apply,
    val_main_v0_apply, val_main_v5_apply, val_main_v11_apply, val_main_v10_apply, val_main_v17_apply, val_main_v16_apply,
    val_main_cst_apply, val_main_cst_0_apply, val_main_cst_1_apply, val_main_cst_2_apply, val_main_cst_3_apply,
    val_main_cst_4_apply, val_main_cst_5_apply, Ideal.mulf_def, Ideal.subf_def, Ideal.addf_def, Ideal.hostDivf_def,
    Ideal.hostUnary_log_def, Ideal.ofBits_def]
  rfl

end Cert.Gmm.Ref

end
-- ==== Proof.PreReal.lean ====
/-
  What the precondition says of the three inputs. It is printed as four `all`-reductions joined by `and`:
  `|x| < +∞`, `|l| < +∞`, `|s| < +∞` entrywise, and `s · s > 0` entrywise. An extended real whose absolute value
  is below `+∞` is a real number; a real whose square is positive is nonzero. So under the precondition the inputs lie
  in the domain on which the two arrangements of the log-density agree: every entry real, no scale zero.
-/
import proofs.«170553_j13838384628107_1_alg».proof.Pre_finite_inputs
import proofs.«170553_j13838384628107_1_alg».proof.Proof.Spec
import Idealize.ShloMosaic.Lib.ReduceAll
import Idealize.ShloMosaic.Lib.ValueIdx

noncomputable section

namespace Cert.Gmm.Pre

open Idealize.ShloMosaic Cert.Pre_finite_inputs Cert.Val

variable [Cert.Pre_finite_inputs.Facts]

/-- The scalar shape has one index. -/
instance : Subsingleton S_.Idx := ⟨fun a b => funext fun d => d.elim0⟩

/-- An extended real whose absolute value is below the infinity literal is a real number. -/
theorem real_of_abs_lt (x : EReal) (h : Ideal.cmp .olt (max x (-x)) (Ideal.ofBits .f32 0x7F800000#32) = 1#1) : IsReal x := by
  have hinf : Ideal.ofBits .f32 0x7F800000#32 = ⊤ := by simp [Ideal.ofBits, Ideal.ieee]
  rw [hinf] at h
  have h' : BitVec.ofBool (decide (max x (-x) < ⊤)) = 1#1 := h
  have hlt : max x (-x) < ⊤ := by
    by_contra hn
    rw [decide_eq_false hn] at h'
    exact absurd h' (by decide)
  induction x using EReal.rec with
  | bot => simp at hlt
  | coe r => exact ⟨r, rfl⟩
  | top => simp at hlt

/-- A real number whose square is above the zero literal is nonzero. -/
theorem ne_zero_of_sq_pos (x : EReal) (hx : IsReal x) (h : Ideal.cmp .ogt (x * x) (Ideal.ofBits .f32 0x00000000#32) = 1#1) :
    ∃ r : ℝ, x = (r : EReal) ∧ r ≠ 0 := by
  obtain ⟨r, rfl⟩ := hx
  refine ⟨r, rfl, fun hr => ?_⟩
  subst hr
  have h' : BitVec.ofBool (decide (Ideal.ofBits .f32 0x00000000#32 < ((0 : ℝ) : EReal) * ((0 : ℝ) : EReal))) = 1#1 := h
  rw [Ideal.ofBits_zero_f32] at h'
  have hn : ¬ ((0 : EReal) < ((0 : ℝ) : EReal) * ((0 : ℝ) : EReal)) := by simp
  rw [decide_eq_false hn] at h'
  exact absurd h' (by decide)

/-- Under the precondition the inputs lie in the domain: every entry real, no scale zero. -/
theorem dom_of_pre (x : S131072x256.Idx → EReal) (l s : S256x512.Idx → EReal)
    (h : fn (F := Ideal) x l s = fun _ => 1#1) : Cert.Gmm.Dom x l s := by
  have h0 := congrFun h ValueIdx.ix0
  dsimp only [fn, fn_part1] at h0
  obtain ⟨h13, h17⟩ := IntOp.andi_eq_one.1 h0
  obtain ⟨h8, h12⟩ := IntOp.andi_eq_one.1 h13
  obtain ⟨h3, h7⟩ := IntOp.andi_eq_one.1 h8
  have ex := Host.reduce_andi_all _ _ _ _ _ h3
  have el := Host.reduce_andi_all _ _ _ _ _ h7
  have es := Host.reduce_andi_all _ _ _ _ _ h12
  have ep := Host.reduce_andi_all _ _ _ _ _ h17
  have hs : IsRealArr s := fun j => real_of_abs_lt (s j) (es j)
  exact ⟨fun i => real_of_abs_lt (x i) (ex i), fun j => real_of_abs_lt (l j) (el j),
    fun j => ne_zero_of_sq_pos (s j) (hs j) (ep j)⟩

end Cert.Gmm.Pre

end
-- ==== Proof.lean ====
/-
  The log-density of a Gaussian mixture with diagonal scales, `x : [131072, 256]` against tables `l, s : [256, 512]`:

      out[n,u] = -½ · Σ_d ((x[n,d] - l[d,u]) / s[d,u])²  -  ½ · Σ_d log (s[d,u]²)  -  256 · ln(2π)/2 ,

  with the square expanded so that the sums over `d` are matrix products. The kernel forms `-½ · Σ x²/s² + Σ x·(l/s²)`
  row block by row block and adds a per-column constant `(-½ · Σ l²/s² - ½ · Σ log s²) - K` computed beforehand; the
  reference assembles `(Σ x²/s² - 2 · Σ x·(l/s²)) + Σ l²/s²`, scales it by `-½`, and subtracts `½ · Σ log s²` and `K`.

  The two are equal by distributing `-½` over a sum of three terms. On the extended reals that law holds for real
  summands, not across `⊤ + ⊥`: with a zero scale `1/s²` is `+∞` and `log s²` is `-∞`, and the two arrangements part
  (at `x = l = 1`, `s = 0` in one place, one gives `⊥` and the other `⊤`). The precondition therefore asks, beside
  finiteness, that `s · s > 0` entrywise, which is the domain of the reference's own `log (s · s)` and `1 / (s · s)`.
  Under it every sum is a real number and the law is a ring identity of ℝ (Spec.lean).

  The kernel's result array as a function of the arguments is read off its run block by block (KernelBody, KernelHost,
  KernelValue); the reference's off its run operation by operation (RefValue); the precondition gives the domain
  (PreReal). The frames are the programs' runs with the result dropped; no rewrite was applied to the kernel, so
  `preserves` is trivial.
-/
import proofs.«170553_j13838384628107_1_alg».proof.Defs
import proofs.«170553_j13838384628107_1_alg».proof.Proof.Gen.Kernel
import proofs.«170553_j13838384628107_1_alg».proof.Proof.Gen.Kernel.Skeleton
import proofs.«170553_j13838384628107_1_alg».proof.Proof.Gen.Kernel.Launch
import proofs.«170553_j13838384628107_1_alg».proof.Proof.Gen.Kernel.Points
import proofs.«170553_j13838384628107_1_alg».proof.Proof.Gen.Kernel.Frame
import proofs.«170553_j13838384628107_1_alg».proof.Proof.Gen.KernelIdeal
import proofs.«170553_j13838384628107_1_alg».proof.Proof.Gen.KernelIdeal.Skeleton
import proofs.«170553_j13838384628107_1_alg».proof.Proof.Gen.KernelIdeal.Launch
import proofs.«170553_j13838384628107_1_alg».proof.Proof.Gen.KernelIdeal.Points
import proofs.«170553_j13838384628107_1_alg».proof.Proof.Gen.KernelIdeal.Frame
import proofs.«170553_j13838384628107_1_alg».proof.Proof.Gen.ReferenceIdeal
import proofs.«170553_j13838384628107_1_alg».proof.Proof.Gen.Pre_finite_inputs
import proofs.«170553_j13838384628107_1_alg».proof.Proof.Gen.KernelIdeal.Value
import proofs.«170553_j13838384628107_1_alg».proof.Proof.Gen.ReferenceIdeal.Run
import proofs.«170553_j13838384628107_1_alg».proof.Proof.Gen.ReferenceIdeal.Read
import proofs.«170553_j13838384628107_1_alg».proof.Proof.KernelValue
import proofs.«170553_j13838384628107_1_alg».proof.Proof.RefValue
import proofs.«170553_j13838384628107_1_alg».proof.Proof.PreReal
import Idealize.ShloMosaic.Adequacy
import Idealize.ShloMosaic.Init

noncomputable section

namespace Cert.Proof

open Idealize.ShloMosaic Idealize.SL.Sem

/-- The kernel as printed runs, and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From arguments that agree and lie in the domain, the kernel's result array ends at `kernelVal` entry by entry and
    the reference's at `refVal`; on the domain those are one real number. -/
theorem algebraic : Cert.algebraic_KernelIdeal_ReferenceIdeal := by
  intro m ρ m' ρ' hpre hagree
  refine ⟨fun c => Cert.Gmm.Kernel.result m c, Cert.Gmm.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, (hagree c).1, (hagree c).2.1, (hagree c).2.2]
  funext i
  rw [Cert.Gmm.Ref.val_apply]
  exact (Cert.Gmm.kernelVal_eq_refVal (Cert.Gmm.Pre.dom_of_pre _ _ _ (hpre c)) (i 0) (i 1)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
